-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S1x1 : Shape := ⟨2, ![1, 1]⟩
abbrev S512x128 : Shape := ⟨2, ![512, 128]⟩
abbrev S512 : Shape := ⟨1, ![512]⟩
abbrev S512x512 : Shape := ⟨2, ![512, 512]⟩
abbrev S512x1 : Shape := ⟨2, ![512, 1]⟩
abbrev S1x512 : Shape := ⟨2, ![1, 512]⟩
abbrev S1x512x512 : Shape := ⟨3, ![1, 512, 512]⟩
abbrev S1 : Shape := ⟨1, ![1]⟩
abbrev S1x1x1 : Shape := ⟨3, ![1, 1, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .i32⟩
  | .local _ .vmem, ⟨9, _⟩ => ⟨S512, .i32⟩
  | .local _ .vmem, ⟨10, _⟩ => ⟨S512, .i32⟩
  | .local _ .vmem, ⟨11, _⟩ => ⟨S512, .i32⟩
  | .local _ .vmem, ⟨12, _⟩ => ⟨S1x1, .f32⟩
  | .local _ .vmem, ⟨13, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let c15_i32 : BitVec 32 := 15#32
  let v64 : BitVec 1 := Scalar.cmpi .eq arg0 c15_i32
  let arg1 : BitVec 32 := BitVec.ofNat 32 (i 1).val
  let c15_i32_22 : BitVec 32 := 15#32
  let v65 : BitVec 1 := Scalar.cmpi .eq arg1 c15_i32_22
  let v66 : BitVec 1 := Scalar.andi v64 v65
  let v67 : BitVec 32 := Scalar.extui v66
  let c0_i32_23 : BitVec 32 := 0#32
  let v68 : BitVec 1 := Scalar.cmpi .ne v67 c0_i32_23
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  reducesTo_S8192x128_S8192_d1 : S8192x128.ReducesTo [1] S8192
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x128_S512x128_0_0 : ∀ a, (![0, 0] : Fin 2 → Nat) a + S512x128.size a ≤ S512x128.size a
  h_S512x128 : 0 < S512x128.numel
  inb_S512_S512_0 : ∀ a, (![0] : Fin 1 → Nat) a + S512.size a ≤ S512.size a
  h_S512 : 0 < S512.numel
  shapeCasts_S512_S512 : S512.ShapeCasts S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  shapeCasts_S_S1 : S_.ShapeCasts S1
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S8192.size a
  hwx0_3 : ∀ i : grid0.Coords, EltTy.bits .f32 = 32 ∨ (Rect.block (s := S8192) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S8192.size a
  hwx0_4 : ∀ i : grid0.Coords, EltTy.bits .i32 = 32 ∨ (Rect.block (s := S8192) S512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S8192.size a
  hwx0_5 : ∀ i : grid0.Coords, EltTy.bits .i32 = 32 ∨ (Rect.block (s := S8192) S512.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S1 : Shape := ⟨1, ![1]⟩

abbrev nBuf : Space → Nat
  | .hbm => 61
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .i1⟩
  | .hbm, ⟨20, _⟩ => ⟨S8192x8192, .i1⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .i1⟩
  | .hbm, ⟨28, _⟩ => ⟨S8192x8192, .i1⟩
  | .hbm, ⟨29, _⟩ => ⟨S8192x8192, .i1⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .i1⟩
  | .hbm, ⟨39, _⟩ => ⟨S8192x8192, .i1⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  shapeCasts_S_S1 : S_.ShapeCasts S1
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Data.lean ====
/-
  The proof data of the pipelined region, for any float instance.

  The region runs a 16 x 16 grid; point (i, j) reads row block i and row block j of the embeddings, of the
  row norms and of the labels, adds the sum of the 512 x 512 pair terms of that tile to a one-word scratch
  (cleared at the first point), and at the last point copies the scratch into the one-word output. Here:
  the arrays as the region finds them, each window's block at a point, the scratch after each point as a
  recursion over the points, and the pipeline's proof data built from them. Two windows read each of the
  three input arrays, so each of those arrays is held by halves.
-/
import proofs.«103390_j9990093931268_1_alg».proof.Proof.Gen.Kernel.Launch
import proofs.«103390_j9990093931268_1_alg».proof.Proof.Gen.Kernel.Skeleton
import proofs.«103390_j9990093931268_1_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev Vl (c : Dev nD) : Valuation τ sig (Elt F) := fun b => m (c, b)
/-- after the three host operations before the region (the squares, the zero, the row sums); -/
abbrev V0 (c : Dev nD) : Valuation τ sig (Elt F) := StableHlo.after hostOps0 (Vl m c)
/-- and read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The six input blocks at a point, at their literal types: rows of block i, rows of block j, their norms, their labels. -/
abbrev xI (c : Dev nD) (t : Fin cfg0.N) : Vec F S512x128 .f32 := iblk m c 0 t
abbrev xJ (c : Dev nD) (t : Fin cfg0.N) : Vec F S512x128 .f32 := iblk m c 1 t
abbrev sI (c : Dev nD) (t : Fin cfg0.N) : Vec F S512 .f32 := iblk m c 2 t
abbrev sJ (c : Dev nD) (t : Fin cfg0.N) : Vec F S512 .f32 := iblk m c 3 t
abbrev lI (c : Dev nD) (t : Fin cfg0.N) : Vec F S512 .i32 := iblk m c 4 t
abbrev lJ (c : Dev nD) (t : Fin cfg0.N) : Vec F S512 .i32 := iblk m c 5 t

/-! ## The scratch, point by point -/

/-- One point's update of the scratch word: the tile's pair terms summed and added to what the scratch held. -/
def upd (i : grid0.Coords) (x0 x1 : Vec F S512x128 .f32) (s0 s1 : Vec F S512 .f32) (l0 l1 : Vec F S512 .i32)
    (acc : Vec F S1x1 .f32) : Vec F S1x1 .f32 :=
  k0_pay1 (k0_pay3 x0 x1 s0 s1) (k0_pay4 (F := F) l0 l1) (k0_pay5 i) (k0_pay6 (F := F) i l0 l1) acc

/-- What the scratch holds before point `n` (after point `n - 1`): zero, then one update per point. -/
def accAt (c : Dev nD) : ℕ → Vec F S1x1 .f32
  | 0 => k0_pay2 (F := F)
  | n + 1 =>
    if h : n < cfg0.N then
      upd (grid0.coords ⟨n, h⟩) (xI m c ⟨n, h⟩) (xJ m c ⟨n, h⟩) (sI m c ⟨n, h⟩) (sJ m c ⟨n, h⟩) (lI m c ⟨n, h⟩) (lJ m c ⟨n, h⟩) (accAt c n)
    else accAt c n

theorem accAt_succ (c : Dev nD) (t : Fin cfg0.N) :
    accAt m c (t.val + 1) = upd (grid0.coords t) (xI m c t) (xJ m c t) (sI m c t) (sJ m c t) (lI m c t) (lJ m c t) (accAt m c t.val) := by
  rw [accAt, dif_pos t.isLt]

/-- The scratch operand as a memref. -/
abbrev scM : Memref sig .tc .vmem S1x1 .f32 := Memref.whole cc0_scratch0

/-- The region's invariant before position `n`: at the first point the scratch at anything; afterwards at what the
    points so far have summed. -/
def PhiS (c : Dev nD) : ℕ → sProp 𝕄
  | 0 => iprop(∃ d, owns (c : Thread nD τ) scM fullShare d)
  | n + 1 => owns (c : Thread nD τ) scM fullShare (accAt m c (n + 1))

theorem PhiS_pos (c : Dev nD) (n : ℕ) (hz : n ≠ 0) : PhiS m c n = owns (c : Thread nD τ) scM fullShare (accAt m c n) := by
  cases n with
  | zero => exact absurd rfl hz
  | succ n => rfl

/-! ## The pipeline's proof data -/

/-- The proof data on core `c`: the arrays as the region finds them; after the body each input's buffer at its
    block, the output's at the scratch's contents after that point (consulted at the last point only: elsewhere the
    output window is idle); the invariant; nothing owed; the two windows on one array hold a half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c (t.val + 1)
  Φ t := PhiS m c t.val
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = accAt m c (t.val + 1) := by dsimp only [dats]

end Cert.Kernel.Hand

end
-- ==== Proof.K.Triple.lean ====
/-
  The kernel body as a triple, in each of the three control cases the grid meets.

  The body clears the scratch word at the first point, loads the six input blocks, adds the tile's sum to the
  scratch, and at the last point copies the scratch into the output word. On whole memrefs holding the blocks it
  runs, leaves the inputs as they were and the scratch at the updated word (`upd`); the output's buffer is
  untouched except at the last point, where it ends at the scratch's word.
-/
import proofs.«103390_j9990093931268_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test (both grid coordinates zero), as the body computes it. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The second conditional's test (both grid coordinates fifteen). -/
abbrev cond2 (i : grid0.Coords) : Prop := k0_cond2 i = 1#1

/-- The zero offsets of a whole block, of rank two and of rank one. -/
theorem hz2 : (![0, 0] : Fin 2 → Nat) = fun _ => 0 := funext fun a => by fin_cases a <;> rfl
theorem hz1 : (![0] : Fin 1 → Nat) = fun _ => 0 := funext fun a => by fin_cases a <;> rfl

/-- A buffer whose last write went through the whole-block rectangle reads as that write's payload,
    whatever it held and whatever was written before. -/
theorem read_writes_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h]

/-- At the first point: the scratch, at anything, ends at the update of the zero word; the output's buffer is untouched. -/
theorem triple_first (c : Dev nD) (i : grid0.Coords) (a2 : Memref sig .tc .vmem S512x128 .f32) (h2 : a2.IsWhole) (a3 : Memref sig .tc .vmem S512x128 .f32) (h3 : a3.IsWhole) (a4 : Memref sig .tc .vmem S512 .f32) (h4 : a4.IsWhole) (a5 : Memref sig .tc .vmem S512 .f32) (h5 : a5.IsWhole) (a6 : Memref sig .tc .vmem S512 .i32) (h6 : a6.IsWhole) (a7 : Memref sig .tc .vmem S512 .i32) (h7 : a7.IsWhole) (a8 : Memref sig .tc .vmem S1x1 .f32) (h8 : a8.IsWhole) (a9 : Memref sig .tc .vmem S1x1 .f32) (h9 : a9.IsWhole)
    (hc1 : cond1 i) (hc2 : ¬cond2 i)
    (x0 x1 : Vec F S512x128 .f32) (s0 s1 : Vec F S512 .f32) (l0 l1 : Vec F S512 .i32) (o : Vec F S1x1 .f32)
    (E : Set ℕ) (K : PUnit → sProp 𝕄) :
    iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare o ∗ (∃ d, owns (c : Thread nD τ) a9 fullShare d)
        ∗ (iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare o ∗ owns (c : Thread nD τ) a9 fullShare (upd i x0 x1 s0 s1 l0 l1 (k0_pay2 (F := F)))) -∗ K ⟨⟩))
      ⊢ wp frame (wpE (defs₀ (F := F)) Variants.none c none) E (cc0__contrastive_kernel i a2 h2 a3 h3 a4 h4 a5 h5 a6 h6 a7 h7 a8 h8 a9 h9) K := by
  -- the body is its sequence of memory operations over the named values; each buffer holds the one contents that reads as given
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d, %f9, %hf9, H9⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
  sl_exec (disch := first | exact hc1 | exact hc2)
  sl_step
  iapply Hk
  -- the inputs and the output's buffer are as they were
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  -- the scratch was written whole twice, the zero word and then its update: it reads as the later write,
  -- whose addend is the zero word read back, over the six blocks as loaded
  iexists _; isplitr
  swap
  · iexact H9
  ipureintro
  refine (read_writes_whole _ _ hz2 _ _ _).trans ?_
  sl_unfold_words
  simp only [View.readAt_eq_ld, View.readCov_unit_zero (S := S1x1) _ hz2, h2.read_unread, h3.read_unread, h4.read_unread, h5.read_unread, h6.read_unread, h7.read_unread, View.ld_unit_zero (S := S512x128) hz2, View.ld_unit_zero (S := S512) hz1]
  rfl

/-- At a point that is neither first nor last: the scratch goes from `acc` to its update; the output's buffer is untouched. -/
theorem triple_mid (c : Dev nD) (i : grid0.Coords) (a2 : Memref sig .tc .vmem S512x128 .f32) (h2 : a2.IsWhole) (a3 : Memref sig .tc .vmem S512x128 .f32) (h3 : a3.IsWhole) (a4 : Memref sig .tc .vmem S512 .f32) (h4 : a4.IsWhole) (a5 : Memref sig .tc .vmem S512 .f32) (h5 : a5.IsWhole) (a6 : Memref sig .tc .vmem S512 .i32) (h6 : a6.IsWhole) (a7 : Memref sig .tc .vmem S512 .i32) (h7 : a7.IsWhole) (a8 : Memref sig .tc .vmem S1x1 .f32) (h8 : a8.IsWhole) (a9 : Memref sig .tc .vmem S1x1 .f32) (h9 : a9.IsWhole)
    (hc1 : ¬cond1 i) (hc2 : ¬cond2 i)
    (x0 x1 : Vec F S512x128 .f32) (s0 s1 : Vec F S512 .f32) (l0 l1 : Vec F S512 .i32) (o acc : Vec F S1x1 .f32)
    (E : Set ℕ) (K : PUnit → sProp 𝕄) :
    iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare o ∗ owns (c : Thread nD τ) a9 fullShare acc
        ∗ (iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare o ∗ owns (c : Thread nD τ) a9 fullShare (upd i x0 x1 s0 s1 l0 l1 acc)) -∗ K ⟨⟩))
      ⊢ wp frame (wpE (defs₀ (F := F)) Variants.none c none) E (cc0__contrastive_kernel i a2 h2 a3 h3 a4 h4 a5 h5 a6 h6 a7 h7 a8 h8 a9 h9) K := by
  -- the body is its sequence of memory operations over the named values; each buffer holds the one contents that reads as given
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
  sl_exec (disch := first | exact hc1 | exact hc2)
  sl_step
  iapply Hk
  -- the inputs and the output's buffer are as they were
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  -- the scratch was written whole once: it reads as that write, the update of what it held, over the six blocks as loaded
  iexists _; isplitr
  swap
  · iexact H9
  ipureintro
  refine (read_writes_whole _ _ hz2 _ _ _).trans ?_
  sl_unfold_words
  simp only [View.readAt_eq_ld, h2.read_unread, h3.read_unread, h4.read_unread, h5.read_unread, h6.read_unread, h7.read_unread, h9.read_unread, View.ld_unit_zero (S := S512x128) hz2, View.ld_unit_zero (S := S512) hz1, View.ld_unit_zero (S := S1x1) hz2]
  rfl

/-- At the last point: the scratch goes from `acc` to its update, and the output's buffer ends at that word too. -/
theorem triple_last (c : Dev nD) (i : grid0.Coords) (a2 : Memref sig .tc .vmem S512x128 .f32) (h2 : a2.IsWhole) (a3 : Memref sig .tc .vmem S512x128 .f32) (h3 : a3.IsWhole) (a4 : Memref sig .tc .vmem S512 .f32) (h4 : a4.IsWhole) (a5 : Memref sig .tc .vmem S512 .f32) (h5 : a5.IsWhole) (a6 : Memref sig .tc .vmem S512 .i32) (h6 : a6.IsWhole) (a7 : Memref sig .tc .vmem S512 .i32) (h7 : a7.IsWhole) (a8 : Memref sig .tc .vmem S1x1 .f32) (h8 : a8.IsWhole) (a9 : Memref sig .tc .vmem S1x1 .f32) (h9 : a9.IsWhole)
    (hc1 : ¬cond1 i) (hc2 : cond2 i)
    (x0 x1 : Vec F S512x128 .f32) (s0 s1 : Vec F S512 .f32) (l0 l1 : Vec F S512 .i32) (o acc : Vec F S1x1 .f32)
    (E : Set ℕ) (K : PUnit → sProp 𝕄) :
    iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare o ∗ owns (c : Thread nD τ) a9 fullShare acc
        ∗ (iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare (upd i x0 x1 s0 s1 l0 l1 acc) ∗ owns (c : Thread nD τ) a9 fullShare (upd i x0 x1 s0 s1 l0 l1 acc)) -∗ K ⟨⟩))
      ⊢ wp frame (wpE (defs₀ (F := F)) Variants.none c none) E (cc0__contrastive_kernel i a2 h2 a3 h3 a4 h4 a5 h5 a6 h6 a7 h7 a8 h8 a9 h9) K := by
  -- the body is its sequence of memory operations over the named values; each buffer holds the one contents that reads as given
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
  sl_exec (disch := first | exact hc1 | exact hc2)
  sl_step
  iapply Hk
  -- the inputs are as they were
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  -- the output's buffer was written whole with the scratch's word read back after its update
  isplitl [H8]
  · iexists _; isplitr
    swap
    · iexact H8
    ipureintro
    refine (read_writes_whole _ _ hz2 _ _ _).trans ?_
    sl_unfold_words
    simp only [View.readAt_eq_ld, View.readCov_unit_zero (S := S1x1) _ hz2, h2.read_unread, h3.read_unread, h4.read_unread, h5.read_unread, h6.read_unread, h7.read_unread, h9.read_unread, View.ld_unit_zero (S := S512x128) hz2, View.ld_unit_zero (S := S512) hz1, View.ld_unit_zero (S := S1x1) hz2]
    rfl
  -- the scratch was written whole once: it reads as that write, the update of what it held
  iexists _; isplitr
  swap
  · iexact H9
  ipureintro
  sl_unfold_words
  refine (read_writes_whole _ _ hz2 _ _ _).trans ?_
  simp only [View.readAt_eq_ld, h2.read_unread, h3.read_unread, h4.read_unread, h5.read_unread, h6.read_unread, h7.read_unread, h9.read_unread, View.ld_unit_zero (S := S512x128) hz2, View.ld_unit_zero (S := S512) hz1, View.ld_unit_zero (S := S1x1) hz2]
  rfl

end Cert.Kernel.Hand

end
-- ==== Proof.K.Body.lean ====
/-
  The pipeline's body obligation: at every grid point the kernel body, called on the windows' current staging
  buffers, takes the invariant, what the core owes and each buffer at what the pipeline left there to the
  invariant after the point and each buffer at what the proof data says the body leaves.

  Each input's buffer holds its block of the array at every point, fetched there or not; the point is the first
  (both coordinates 0), the last (both 15) or neither, which selects the body's triple; the output window is idle
  except at the last point.
-/
import proofs.«103390_j9990093931268_1_alg».proof.Proof.K.Triple

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is which -/

/-- The first conditional's test holds at the first point only. -/
theorem hcond1 : ∀ t : Fin cfg0.N, cond1 (grid0.coords t) ↔ t.val = 0 :=
  (by decide +kernel : ∀ t : Fin grid0.N, cond1 (grid0.coords t) ↔ t.val = 0)

/-- The second conditional's test holds at the last point only. -/
theorem hcond2 : ∀ t : Fin cfg0.N, cond2 (grid0.coords t) ↔ t.val = 255 :=
  (by decide +kernel : ∀ t : Fin grid0.N, cond2 (grid0.coords t) ↔ t.val = 255)

/-! ## Where the windows are idle -/

/-- The inputs are never idle. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
/-- Away from the last point the output window is idle, -/
theorem idleAt_6 : ∀ t : Fin cfg0.N, ¬cond2 (grid0.coords t) → cfg0.idle 6 (grid0.coords t) = true := by decide +kernel
/-- and its block is not written back; -/
theorem noFlush_6 : ∀ t : Fin cfg0.N, ¬cond2 (grid0.coords t) → (cfg0.win 6).flush t = false := by decide +kernel
/-- at the last point it is live. -/
theorem liveAt_6 : ∀ t : Fin cfg0.N, cond2 (grid0.coords t) → cfg0.idle 6 (grid0.coords t) = false := by decide +kernel

/-! ## What the inputs' buffers hold -/

/-- Each input's current staging buffer holds its block at every point, fetched there or not: unfetched, the
    block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The invariant at a point -/

/-- Before the first point the scratch is at anything. -/
theorem PhiS_zero (c : Dev nD) (n : ℕ) (hz : n = 0) :
    PhiS m c n = iprop(∃ d, owns (c : Thread nD τ) scM fullShare d) := by
  subst hz; rfl

/-- After point `n` the scratch holds what the points up to `n` have summed. -/
theorem PhiS_succ (c : Dev nD) (n : ℕ) :
    PhiS m c (n + 1) = owns (c : Thread nD τ) scM fullShare (accAt m c (n + 1)) := rfl

/-- Before the first point nothing has been summed: the scratch's word is the zero word. -/
theorem accAt_zero (c : Dev nD) (n : ℕ) (hz : n = 0) : accAt m c n = k0_pay2 (F := F) := by
  subst hz; rfl

/-! ## The body obligation, at a generic point -/

/-- Each window's current staging memref at point `t`, at its literal type. -/
abbrev ms0 (t : Fin cfg0.N) : Memref sig .tc .vmem S512x128 .f32 := win0_0.stage (cfg0.slots t 0)
abbrev ms1 (t : Fin cfg0.N) : Memref sig .tc .vmem S512x128 .f32 := win0_1.stage (cfg0.slots t 1)
abbrev ms2 (t : Fin cfg0.N) : Memref sig .tc .vmem S512 .f32 := win0_2.stage (cfg0.slots t 2)
abbrev ms3 (t : Fin cfg0.N) : Memref sig .tc .vmem S512 .f32 := win0_3.stage (cfg0.slots t 3)
abbrev ms4 (t : Fin cfg0.N) : Memref sig .tc .vmem S512 .i32 := win0_4.stage (cfg0.slots t 4)
abbrev ms5 (t : Fin cfg0.N) : Memref sig .tc .vmem S512 .i32 := win0_5.stage (cfg0.slots t 5)
abbrev ms6 (t : Fin cfg0.N) : Memref sig .tc .vmem S1x1 .f32 := win0_6.stage (cfg0.slots t 6)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A live input window's post: its buffer at its block. -/
theorem leaves_0 (c : Dev nD) (t : Fin cfg0.N) :
    (dats m 0 c).leavesExact 0 t = owns (c : Thread nD τ) (ms0 t) fullShare (iblk m c 0 t) := by
  unfold Dat.leavesExact; rw [liveAt_0 t, after0_0]
theorem leaves_1 (c : Dev nD) (t : Fin cfg0.N) :
    (dats m 0 c).leavesExact 1 t = owns (c : Thread nD τ) (ms1 t) fullShare (iblk m c 1 t) := by
  unfold Dat.leavesExact; rw [liveAt_1 t, after0_1]
theorem leaves_2 (c : Dev nD) (t : Fin cfg0.N) :
    (dats m 0 c).leavesExact 2 t = owns (c : Thread nD τ) (ms2 t) fullShare (iblk m c 2 t) := by
  unfold Dat.leavesExact; rw [liveAt_2 t, after0_2]
theorem leaves_3 (c : Dev nD) (t : Fin cfg0.N) :
    (dats m 0 c).leavesExact 3 t = owns (c : Thread nD τ) (ms3 t) fullShare (iblk m c 3 t) := by
  unfold Dat.leavesExact; rw [liveAt_3 t, after0_3]
theorem leaves_4 (c : Dev nD) (t : Fin cfg0.N) :
    (dats m 0 c).leavesExact 4 t = owns (c : Thread nD τ) (ms4 t) fullShare (iblk m c 4 t) := by
  unfold Dat.leavesExact; rw [liveAt_4 t, after0_4]
theorem leaves_5 (c : Dev nD) (t : Fin cfg0.N) :
    (dats m 0 c).leavesExact 5 t = owns (c : Thread nD τ) (ms5 t) fullShare (iblk m c 5 t) := by
  unfold Dat.leavesExact; rw [liveAt_5 t, after0_5]
/-- The output window's post away from the last point: its buffer at what it was handed; -/
theorem leaves_6_idle (c : Dev nD) (t : Fin cfg0.N) (h2 : ¬cond2 (grid0.coords t)) :
    (dats m 0 c).leavesExact 6 t = iprop(∃ d, owns (c : Thread nD τ) (ms6 t) fullShare ((dats m 0 c).before 6 t d)) :=
  Dat.leavesExact_idle (dats m 0 c) 6 t (idleAt_6 t h2) (noFlush_6 t h2)
/-- at the last point: at the scratch's word after the point. -/
theorem leaves_6_last (c : Dev nD) (t : Fin cfg0.N) (h2 : cond2 (grid0.coords t)) :
    (dats m 0 c).leavesExact 6 t = owns (c : Thread nD τ) (ms6 t) fullShare (accAt m c (t.val + 1)) := by
  unfold Dat.leavesExact; rw [liveAt_6 t h2, after0_6]

set_option maxHeartbeats 4000000 in
/-- The body at any point. The inputs' memrefs hold their blocks; the closed forms say which of the three cases
    the point is in; the invariant hands the body the scratch (at anything at the first point, afterwards at the
    sum so far) and takes it back at the sum with this point's tile added; the output's buffer comes back as it
    was handed, except at the last point, where it ends at the scratch's word; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from rfl]
  rw [leaves_0, leaves_1, leaves_2, leaves_3, leaves_4, leaves_5]
  rw [accAt_succ]
  by_cases h1 : t.val = 0
  · have h2 : ¬t.val = 255 := by omega
    have hc1 : cond1 (grid0.coords t) := (hcond1 t).mpr h1
    have hc2 : ¬cond2 (grid0.coords t) := fun h => h2 ((hcond2 t).mp h)
    rw [leaves_6_idle m c t hc2, PhiS_zero m c _ h1, accAt_zero m c _ h1]
    iintro ⟨HS, Ho, ⟨%d0, H0⟩, ⟨%d1, H1⟩, ⟨%d2, H2⟩, ⟨%d3, H3⟩, ⟨%d4, H4⟩, ⟨%d5, H5⟩, ⟨%d6, H6⟩⟩
    iapply (triple_first c (grid0.coords t) _ _ _ _ _ _ _ _ _ _ _ _ _ _ _ _ hc1 hc2
      (xI m c t) (xJ m c t) (sI m c t) (sJ m c t) (lI m c t) (lJ m c t) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc1 : ¬cond1 (grid0.coords t) := fun h => h1 ((hcond1 t).mp h)
    rw [PhiS_pos m c _ h1]
    by_cases h2 : t.val = 255
    · have hc2 : cond2 (grid0.coords t) := (hcond2 t).mpr h2
      rw [leaves_6_last m c t hc2, accAt_succ]
      iintro ⟨HS, Ho, ⟨%d0, H0⟩, ⟨%d1, H1⟩, ⟨%d2, H2⟩, ⟨%d3, H3⟩, ⟨%d4, H4⟩, ⟨%d5, H5⟩, ⟨%d6, H6⟩⟩
      iapply (triple_last c (grid0.coords t) _ _ _ _ _ _ _ _ _ _ _ _ _ _ _ _ hc1 hc2
        (xI m c t) (xJ m c t) (sI m c t) (sJ m c t) (lI m c t) (lJ m c t) ((dats m 0 c).before 6 t d6) (accAt m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬cond2 (grid0.coords t) := fun h => h2 ((hcond2 t).mp h)
      rw [leaves_6_idle m c t hc2]
      iintro ⟨HS, Ho, ⟨%d0, H0⟩, ⟨%d1, H1⟩, ⟨%d2, H2⟩, ⟨%d3, H3⟩, ⟨%d4, H4⟩, ⟨%d5, H5⟩, ⟨%d6, H6⟩⟩
      iapply (triple_mid c (grid0.coords t) _ _ _ _ _ _ _ _ _ _ _ _ _ _ _ _ hc1 hc2
        (xI m c t) (xJ m c t) (sI m c t) (sJ m c t) (lI m c t) (lJ m c t) ((dats m 0 c).before 6 t d6) (accAt m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Shares.lean ====
/-
  The region's entry and exit, for the arrays.

  Three arrays (the embeddings, the row norms, the labels) are each read through two windows, so the pipeline
  holds each of them as two halves of the full share, one per window; the output array is held whole. At entry
  the core's unscoped buffers, whole at the entry contents, are sorted into those holdings and the rest; at exit
  the halves are joined again and, with the output at the scratch's final word, make the unscoped buffers whole
  at the valuation the host operations after the region start from.
-/
import proofs.«103390_j9990093931268_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The valuation after the region: the entry valuation with the output array at the scratch's final word. -/
abbrev V1 (c : Dev nD) : Valuation τ sig (Elt F) :=
  StableHlo.after [StableHlo.nullary main_v2 (accAt m c 256 : (⟨S1x1, .f32⟩ : BufTy).Contents (Elt F))] (V0 m c)

/-! ## The one-word output -/

/-- The output's shape has one index. -/
theorem idx_sub (i j : S1x1.Idx) : i = j := by
  funext a
  have h1 : S1x1.size a = 1 := by revert a; decide
  apply Fin.ext
  have hi : (i a).val < 1 := lt_of_lt_of_eq (i a).isLt h1
  have hj : (j a).val < 1 := lt_of_lt_of_eq (j a).isLt h1
  omega

/-- The output's block is not empty on any axis, at any point. -/
theorem xsize_pos6 (i : grid0.Coords) (a : Fin 2) : 0 < (win0_6.xblock i).size a :=
  (by decide : ∀ a : Fin 2, 0 < S1x1.size a) a

/-- The output array after the last write-back holds the scratch's final word. -/
theorem arrAt_out (c : Dev nD) : (dats m 0 c).arrAt 6 cfg0.N = accAt m c 256 := by
  -- the last point writes the output's block back, and the block is the whole one-word array:
  -- whatever the array held, it ends at what that point flushed
  have h255 : (255 : ℕ) < cfg0.N := by decide
  have hfl : (cfg0.win 6).flush ⟨255, h255⟩ = true := (flush0_6 ⟨255, h255⟩).mpr rfl
  have hN : cfg0.N = 255 + 1 := N_0
  rw [hN]
  refine ((dats m 0 c).arrAt_succ 6 ⟨255, h255⟩).trans ?_
  rw [if_pos hfl]
  have hnum : 0 < ((cfg0.win 6).xblock (cfg0.grid.coords ⟨255, h255⟩)).numel := Shape.numel_pos (xsize_pos6 _)
  funext i
  have hi : i = ((cfg0.win 6).blk ⟨255, h255⟩).view.emb (Shape.Idx.first hnum) := idx_sub _ _
  rw [hi, View.write_emb_of_mem _ _ (Finset.mem_univ _)]
  show _root_.cast _ ((cfg0.win 6).cut _ ((dats m 0 c).after 6 ⟨255, h255⟩) _) = _
  rw [after0_6]
  exact (cast_eq _ _).trans (congrArg (accAt m c 256) (idx_sub _ _))

/-- Every window but the last is an input. -/
theorem isOut_in : ∀ w : Fin 7, w ≠ 6 → (win0 w).isOut = false := by decide

/-- An input array is never written. -/
theorem arrAt_in (c : Dev nD) (w : Fin cfg0.W) (hw : w ≠ 6) (n : ℕ) : (dats m 0 c).arrAt w n = V m c (Pipeline.arrRef spec0 w) := by
  rw [Pipeline.Dat.arrAt_in (dats m 0 c) w (isOut_in w hw) n]
  exact A_eq m c w

/-! ## The holdings, window by window and buffer by buffer -/

/-- A window's array is a whole buffer: its points-to is the buffer's. -/
theorem win_pt (c : Dev nD) (w : Fin 7) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [(arr_whole0 w).set_eq_univ]

/-- Only the last window is an output. -/
theorem isOut0 : ∀ w : Fin 7, (win0 w).isOut = decide (w = 6) := by decide

/-- An input is held at its window's own share, -/
theorem share_in (c : Dev nD) (w : Fin 7) (hw : w ≠ 6) : (dats m 0 c).share w = (dats m 0 c).q w := by
  unfold Dat.share
  rw [if_neg]
  rw [show (cfg0.win w).isOut = decide (w = 6) from isOut0 w]
  simpa using hw

/-- the output at the full share. -/
theorem share_out (c : Dev nD) : (dats m 0 c).share 6 = fullShare := by
  unfold Dat.share
  split <;> rfl

/-- The seven windows sit on four buffers. -/
theorem image_arr : Finset.univ.image (Pipeline.arrRef spec0) = [main_arg0, main_v1, main_arg1, main_v2].toFinset := by decide

/-- The buffers behind the windows' arrays, one by one. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_v1) ↦{fullShare} Vv main_v1)
          ∗ (((c : Thread nD τ).loc main_arg1) ↦{fullShare} Vv main_arg1) ∗ (((c : Thread nD τ).loc main_v2) ↦{fullShare} Vv main_v2)) := by
  unfold Pipeline.arrBufs
  exact bigSep_eq_bigSepL_of_eq _ image_arr (by decide) _

/-- The pipeline's arrays, one by one: each input buffer as its two halves, the output whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v1) ↦{fullShare.left} G 2) ∗ (((c : Thread nD τ).loc main_v1) ↦{fullShare.right} G 3)
          ∗ (((c : Thread nD τ).loc main_arg1) ↦{fullShare.left} G 4) ∗ (((c : Thread nD τ).loc main_arg1) ↦{fullShare.right} G 5)
          ∗ (((c : Thread nD τ).loc main_v2) ↦{fullShare} G 6)) := by
  unfold Dat.arrays
  rw [Gen.bigSep_W0]
  rw [win_pt c 0, win_pt c 1, win_pt c 2, win_pt c 3, win_pt c 4, win_pt c 5, win_pt c 6,
    share_in m c 0 (by decide), share_in m c 1 (by decide), share_in m c 2 (by decide), share_in m c 3 (by decide),
    share_in m c 4 (by decide), share_in m c 5 (by decide), share_out m c]
  rfl

/-! ## The valuation after the region -/

/-- Off the output array it is the entry valuation; -/
theorem V1_ne (c : Dev nD) (r : Ref sig .tc) (h : r ≠ main_v2) : V1 m c (Proc.devRef .tc r) = V m c r := by
  show StableHlo.after _ (V0 m c) (Proc.devRef .tc r) = V0 m c (Proc.devRef .tc r)
  rw [StableHlo.after_cons, StableHlo.after_nil, StableHlo.nullary_result_ne _ _ _ _ h]

/-- at the output array it is the scratch's final word. -/
theorem V1_out (c : Dev nD) : V1 m c (Proc.devRef .tc main_v2) = accAt m c 256 := by
  show StableHlo.after _ (V0 m c) (Proc.devRef .tc main_v2) = _
  rw [StableHlo.after_cons, StableHlo.after_nil, StableHlo.nullary_result]

/-! ## Entry and exit -/

/-- ENTRY: the unscoped buffers at the entry contents are the pipeline's arrays at its shares, and the rest. -/
theorem entry_split (c : Dev nD) :
    (unscopedBufs c (V m c) : sProp 𝕄)
      ⊢ iprop((dats m 0 c).arrays ((dats m 0 c).arrAt · 0) ∗ Pipeline.unscopedRest spec0 c (V m c)) := by
  rw [Pipeline.unscopedBufs_split₀ cfgs 0 winFacts₀0.arr_unscoped c (V m c)]
  refine BI.sep_mono ?_ (Entails.refl _)
  show (Pipeline.arrBufs spec0 c (V m c) : sProp 𝕄) ⊢ _
  rw [arrBufs_eq, arrays_chain]
  -- each input buffer, whole, is its two halves; before any write-back an array holds its entry contents
  iintro ⟨H0, H1, H2, H3⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  ihave H2 := (pointsTo_share (PosShare.mem_left_op_right fullShare)).1 $$ H2
  icases H2 with ⟨H2l, H2r⟩
  isplitl [H0l]; · iexact H0l
  isplitl [H0r]; · iexact H0r
  isplitl [H1l]; · iexact H1l
  isplitl [H1r]; · iexact H1r
  isplitl [H2l]; · iexact H2l
  isplitl [H2r]; · iexact H2r
  iexact H3

/-- EXIT: the arrays at their final contents and the rest are the unscoped buffers at the valuation after the region. -/
theorem exit_join (c : Dev nD) :
    iprop((dats m 0 c).arrays ((dats m 0 c).arrAt · cfg0.N) ∗ Pipeline.unscopedRest spec0 c (V m c))
      ⊢ (unscopedBufs c (fun b => V1 m c (Proc.devRef .tc b)) : sProp 𝕄) := by
  rw [Pipeline.unscopedBufs_split₀ cfgs 0 winFacts₀0.arr_unscoped c (fun b => V1 m c (Proc.devRef .tc b))]
  refine BI.sep_mono ?_ ?_
  · show _ ⊢ (Pipeline.arrBufs spec0 c (fun b => V1 m c (Proc.devRef .tc b)) : sProp 𝕄)
    -- the inputs end as they began, the output at the scratch's final word; the two halves of a buffer join
    rw [arrBufs_eq, arrays_chain,
      arrAt_in m c 0 (by decide), arrAt_in m c 1 (by decide), arrAt_in m c 2 (by decide), arrAt_in m c 3 (by decide),
      arrAt_in m c 4 (by decide), arrAt_in m c 5 (by decide), arrAt_out m c,
      V1_ne m c main_arg0 (by decide), V1_ne m c main_v1 (by decide), V1_ne m c main_arg1 (by decide), V1_out m c]
    iintro ⟨H0l, H0r, H1l, H1r, H2l, H2r, H3⟩
    ihave H0 := (pointsTo_share (PosShare.mem_left_op_right fullShare)).2 $$ [H0l H0r]
    · isplitl [H0l] <;> iassumption
    ihave H1 := (pointsTo_share (PosShare.mem_left_op_right fullShare)).2 $$ [H1l H1r]
    · isplitl [H1l] <;> iassumption
    ihave H2 := (pointsTo_share (PosShare.mem_left_op_right fullShare)).2 $$ [H2l H2r]
    · isplitl [H2l] <;> iassumption
    isplitl [H0]; · iexact H0
    isplitl [H1]; · iexact H1
    isplitl [H2]; · iexact H2
    iexact H3
  · show (Pipeline.unscopedRest spec0 c (V m c) : sProp 𝕄) ⊢ Pipeline.unscopedRest spec0 c (fun b => V1 m c (Proc.devRef .tc b))
    -- the buffers that are no window's array are not the output array
    rw [unscopedRest0_eq, unscopedRest0_eq,
      V1_ne m c main_v0 (by decide), V1_ne m c main_cst (by decide), V1_ne m c main_v3 (by decide),
      V1_ne m c main_cst_0 (by decide), V1_ne m c main_v4 (by decide), V1_ne m c main_v5 (by decide)]

end Cert.Kernel.Hand

end
-- ==== Proof.K.Run.lean ====
/-
  The run of the whole program, for any float instance: three host operations (the squares, the zero, the row
  sums), the pipelined region, four host operations (reshape, the pair count, the quotient, reshape).

  The program is taken as a list of segments: a host stretch over the core's unscoped buffers held whole at a
  valuation, the region, a host stretch. The region is entered from the buffers as the first stretch left them,
  the three shared arrays split by halves among their windows and the rest bypassing; it is left with the halves
  joined again and the output array at the scratch's final word, which is the valuation the second stretch
  starts from. At the end the three buffers the claims speak of are read back.
-/
import proofs.«103390_j9990093931268_1_alg».proof.Proof.K.Body
import proofs.«103390_j9990093931268_1_alg».proof.Proof.K.Shares
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the proof's. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host operations: that the core owes nothing. -/
abbrev R (c : Dev nD) : sProp 𝕄 := iprop(∃ W, owes (c : Thread nD τ) (0 : CellTallies nD τ sig Unit) W)

/-- The launch element: the pipeline library's, at the staging cells. -/
def u₀ : UR sig nD τ := initOf (Pipeline.cells cfgs cellOf_inj) (Pipeline.launchToks cfgs cellOf_inj)

/-- The valuation at the end: after the four host operations that follow the region. -/
abbrev V2 (c : Dev nD) : Valuation τ sig (Elt F) := StableHlo.after hostOps1 (V1 m c)

/-- The host stretch before the region. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vl m) R

/-- The host stretch after the region. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V1 m) R

set_option backward.isDefEq.respectTransparency.types false in
/-- The region: entered from what the first stretch left, the arrays sorted among the windows and the rest bypassing;
    left with the buffers whole again at the valuation the second stretch starts from. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm]
    iintro ⟨⟨Hub, HO⟩, -, -⟩
    ihave H := (entry_split m c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 from rfl]; unfold PhiS
    rw [scopedRest0_eq]; simp only [scM, owns_whole]
    iintro ⟨-, -, Hr⟩; iexact Hr
  hout c := by
    rw [show (dats m 0 c).Φ (Fin.last cfg0.N) = PhiS m c (Fin.last cfg0.N).val from rfl,
      PhiS_pos m c _ (by rw [Fin.val_last]; have : cfg0.N = 256 := N_0; omega)]
    rw [Pipeline.ownSems0_none, scopedRest0_eq]
    simp only [scM, owns_whole]
    iintro H
    isplitr; · iempintro
    isplitr; · iempintro
    iexists _; iexact H
  hexit c := by
    rw [show StableHlo.held (c : Thread nD τ) (Pipeline.ucRefs τ sig) (V1 m c) = unscopedBufs c (fun b => V1 m c (Proc.devRef .tc b)) from (Pipeline.unscopedBufs_held c _).symm]
    iintro ⟨Ha, HO, -, HZ⟩
    imodintro
    isplitr [HO]
    · iapply (exit_join m c)
      isplitl [Ha] <;> iassumption
    · unfold Pipeline.Dat.owesAt Pipeline.owesWithin
      icases HO with ⟨%W, -, HO⟩; iexists W; iexact HO

/-- The program as the list of the three. -/
abbrev segs : List (Pipeline.Seg (pcfgs (F := F)) adm (dats m) () defs₀ 𝒱₀ L lv) := [.host (seg0 m), .region (reg0 m), .host (seg1 m)]

/-- What is read at the end on core `c`: the result buffer and the two arguments at the final valuation. -/
abbrev QC (c : Dev nD) (s : MemSt nD τ sig (Elt F)) : Prop :=
  s.mem ((c : Thread nD τ).loc main_v5) = V2 m c (Proc.devRef .tc main_v5)
    ∧ s.mem ((c : Thread nD τ).loc main_arg0) = V2 m c (Proc.devRef .tc main_arg0)
    ∧ s.mem ((c : Thread nD τ).loc main_arg1) = V2 m c (Proc.devRef .tc main_arg1)

set_option backward.isDefEq.respectTransparency.types false in
/-- From any memory with zero counters every weakly fair execution of the program terminates, nothing faulting, with the
    result and the arguments at the final valuation. -/
theorem run_main : θ_run defs (onTc (τ := τ) (main (F := F))) (s₀ m ρ) (fun r => ∀ c : Dev nD, QC m c r.2) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (V2 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => QC m c s)
    (hfin := fun c s' => by
      unfold StableHlo.held
      iintro ⟨Hh, HSI⟩
      ihave Hr := (pointsTo_read_all (Pipeline.ucRefs τ sig) (fun b => ((c : Thread nD τ).1, b)) (fun b => V2 m c b) s') $$ [Hh HSI]
      · isplitl [Hh] <;> iassumption
      icases Hr with ⟨%ha, HSI⟩
      imodintro
      isplitr
      · ipureintro
        exact ⟨ha (Proc.devRef .tc main_v5) (show Proc.devRef .tc main_v5 ∈ Pipeline.ucRefs τ sig by decide),
          ha (Proc.devRef .tc main_arg0) (show Proc.devRef .tc main_arg0 ∈ Pipeline.ucRefs τ sig by decide),
          ha (Proc.devRef .tc main_arg1) (show Proc.devRef .tc main_arg1 ∈ Pipeline.ucRefs τ sig by decide)⟩
      iexact HSI)
    (hQ := fun _ h => h)

end Cert.Kernel.Hand

end
-- ==== Proof.K.Final.lean ====
/-
  What the program's buffers hold at the end, for any float instance: the two arguments are as launched (no
  operation and no write-back touches them), and the result is the scratch's final word, reshaped to a scalar,
  divided by the number of pairs, and reshaped to one element.
-/
import proofs.«103390_j9990093931268_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first argument ends as launched. -/
theorem V2_arg0 (c : Dev nD) : V2 m c (Proc.devRef .tc main_arg0) = m ((c : Thread nD τ).loc main_arg0) := by
  dsimp only [V2, V1, V0, Vl, hostOps1, hostOps0]
  after_results

/-- The second argument ends as launched. -/
theorem V2_arg1 (c : Dev nD) : V2 m c (Proc.devRef .tc main_arg1) = m ((c : Thread nD τ).loc main_arg1) := by
  dsimp only [V2, V1, V0, Vl, hostOps1, hostOps0]
  after_results

/-- The result: the final word over the number of pairs. -/
theorem V2_out (c : Dev nD) :
    V2 m c (Proc.devRef .tc main_v5)
      = (shapeCast S1 (Host.divf (shapeCast S_ (accAt m c 256 : (⟨S1x1, .f32⟩ : BufTy).Contents (Elt F)) shapeCasts_S1x1_S_)
          (constant S_ .f32 0x4BFFF800#32)) shapeCasts_S_S1 : (⟨S1, .f32⟩ : BufTy).Contents (Elt F)) := by
  dsimp only [V2, V1, V0, hostOps1]
  after_results
  rfl

/-- The embeddings the region reads are the first argument as launched; -/
theorem V_arg0 (c : Dev nD) : V m c main_arg0 = m ((c : Thread nD τ).loc main_arg0) := by
  dsimp only [V, V0, Vl, hostOps0]
  after_results

/-- the labels are the second argument as launched; -/
theorem V_arg1 (c : Dev nD) : V m c main_arg1 = m ((c : Thread nD τ).loc main_arg1) := by
  dsimp only [V, V0, Vl, hostOps0]
  after_results

/-- and the row norms are the row sums of the squares of the first argument. -/
theorem V_sq (c : Dev nD) :
    V m c main_v1 = (Host.reduceAdd (mulf (m ((c : Thread nD τ).loc main_arg0) : (⟨S8192x128, .f32⟩ : BufTy).Contents (Elt F)) (m ((c : Thread nD τ).loc main_arg0)))
      (constant S_ .f32 0x00000000#32) reducesTo_S8192x128_S8192_d1 h_S_ : (⟨S8192, .f32⟩ : BufTy).Contents (Elt F)) := by
  dsimp only [V, V0, Vl, hostOps0]
  after_results

/-- THE FRAME: the program runs, faults nowhere, and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V2_arg0 m c), (h c).2.2.trans (V2_arg1 m c)⟩) (run_main m ρ)

/-- THE RUN WITH ITS RESULT: the same, with the result buffer at the final word over the number of pairs. -/
theorem run_value : θ_run defs (onTc (τ := τ) (main (F := F))) ⟨m, fun _ => 0, ρ⟩ (fun r => ∀ c : Dev nD,
      r.2.mem ((c.tc : Thread nD τ).loc main_v5)
        = (shapeCast S1 (Host.divf (shapeCast S_ (accAt m c 256 : (⟨S1x1, .f32⟩ : BufTy).Contents (Elt F)) shapeCasts_S1x1_S_)
            (constant S_ .f32 0x4BFFF800#32)) shapeCasts_S_S1 : (⟨S1, .f32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (V2_out m c), (h c).2.1.trans (V2_arg0 m c), (h c).2.2.trans (V2_arg1 m c)⟩) (run_main m ρ)

end Cert.Kernel.Hand

end
-- ==== Proof.KI.Data.lean ====
/-
  The proof data of the pipelined region, for any float instance.

  The region runs a 16 x 16 grid; point (i, j) reads row block i and row block j of the embeddings, of the
  row norms and of the labels, adds the sum of the 512 x 512 pair terms of that tile to a one-word scratch
  (cleared at the first point), and at the last point copies the scratch into the one-word output. Here:
  the arrays as the region finds them, each window's block at a point, the scratch after each point as a
  recursion over the points, and the pipeline's proof data built from them. Two windows read each of the
  three input arrays, so each of those arrays is held by halves.
-/
import proofs.«103390_j9990093931268_1_alg».proof.Proof.Gen.KernelIdeal.Launch
import proofs.«103390_j9990093931268_1_alg».proof.Proof.Gen.KernelIdeal.Skeleton
import proofs.«103390_j9990093931268_1_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev Vl (c : Dev nD) : Valuation τ sig (Elt F) := fun b => m (c, b)
/-- after the three host operations before the region (the squares, the zero, the row sums); -/
abbrev V0 (c : Dev nD) : Valuation τ sig (Elt F) := StableHlo.after hostOps0 (Vl m c)
/-- and read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The six input blocks at a point, at their literal types: rows of block i, rows of block j, their norms, their labels. -/
abbrev xI (c : Dev nD) (t : Fin cfg0.N) : Vec F S512x128 .f32 := iblk m c 0 t
abbrev xJ (c : Dev nD) (t : Fin cfg0.N) : Vec F S512x128 .f32 := iblk m c 1 t
abbrev sI (c : Dev nD) (t : Fin cfg0.N) : Vec F S512 .f32 := iblk m c 2 t
abbrev sJ (c : Dev nD) (t : Fin cfg0.N) : Vec F S512 .f32 := iblk m c 3 t
abbrev lI (c : Dev nD) (t : Fin cfg0.N) : Vec F S512 .i32 := iblk m c 4 t
abbrev lJ (c : Dev nD) (t : Fin cfg0.N) : Vec F S512 .i32 := iblk m c 5 t

/-! ## The scratch, point by point -/

/-- One point's update of the scratch word: the tile's pair terms summed and added to what the scratch held. -/
def upd (i : grid0.Coords) (x0 x1 : Vec F S512x128 .f32) (s0 s1 : Vec F S512 .f32) (l0 l1 : Vec F S512 .i32)
    (acc : Vec F S1x1 .f32) : Vec F S1x1 .f32 :=
  k0_pay1 (k0_pay3 x0 x1 s0 s1) (k0_pay4 (F := F) l0 l1) (k0_pay5 i) (k0_pay6 (F := F) i l0 l1) acc

/-- What the scratch holds before point `n` (after point `n - 1`): zero, then one update per point. -/
def accAt (c : Dev nD) : ℕ → Vec F S1x1 .f32
  | 0 => k0_pay2 (F := F)
  | n + 1 =>
    if h : n < cfg0.N then
      upd (grid0.coords ⟨n, h⟩) (xI m c ⟨n, h⟩) (xJ m c ⟨n, h⟩) (sI m c ⟨n, h⟩) (sJ m c ⟨n, h⟩) (lI m c ⟨n, h⟩) (lJ m c ⟨n, h⟩) (accAt c n)
    else accAt c n

theorem accAt_succ (c : Dev nD) (t : Fin cfg0.N) :
    accAt m c (t.val + 1) = upd (grid0.coords t) (xI m c t) (xJ m c t) (sI m c t) (sJ m c t) (lI m c t) (lJ m c t) (accAt m c t.val) := by
  rw [accAt, dif_pos t.isLt]

/-- The scratch operand as a memref. -/
abbrev scM : Memref sig .tc .vmem S1x1 .f32 := Memref.whole cc0_scratch0

/-- The region's invariant before position `n`: at the first point the scratch at anything; afterwards at what the
    points so far have summed. -/
def PhiS (c : Dev nD) : ℕ → sProp 𝕄
  | 0 => iprop(∃ d, owns (c : Thread nD τ) scM fullShare d)
  | n + 1 => owns (c : Thread nD τ) scM fullShare (accAt m c (n + 1))

theorem PhiS_pos (c : Dev nD) (n : ℕ) (hz : n ≠ 0) : PhiS m c n = owns (c : Thread nD τ) scM fullShare (accAt m c n) := by
  cases n with
  | zero => exact absurd rfl hz
  | succ n => rfl

/-! ## The pipeline's proof data -/

/-- The proof data on core `c`: the arrays as the region finds them; after the body each input's buffer at its
    block, the output's at the scratch's contents after that point (consulted at the last point only: elsewhere the
    output window is idle); the invariant; nothing owed; the two windows on one array hold a half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c (t.val + 1)
  Φ t := PhiS m c t.val
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = accAt m c (t.val + 1) := by dsimp only [dats]

end Cert.KernelIdeal.Hand

end
-- ==== Proof.KI.Triple.lean ====
/-
  The kernel body as a triple, in each of the three control cases the grid meets.

  The body clears the scratch word at the first point, loads the six input blocks, adds the tile's sum to the
  scratch, and at the last point copies the scratch into the output word. On whole memrefs holding the blocks it
  runs, leaves the inputs as they were and the scratch at the updated word (`upd`); the output's buffer is
  untouched except at the last point, where it ends at the scratch's word.
-/
import proofs.«103390_j9990093931268_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test (both grid coordinates zero), as the body computes it. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The second conditional's test (both grid coordinates fifteen). -/
abbrev cond2 (i : grid0.Coords) : Prop := k0_cond2 i = 1#1

/-- The zero offsets of a whole block, of rank two and of rank one. -/
theorem hz2 : (![0, 0] : Fin 2 → Nat) = fun _ => 0 := funext fun a => by fin_cases a <;> rfl
theorem hz1 : (![0] : Fin 1 → Nat) = fun _ => 0 := funext fun a => by fin_cases a <;> rfl

/-- A buffer whose last write went through the whole-block rectangle reads as that write's payload,
    whatever it held and whatever was written before. -/
theorem read_writes_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h]

/-- At the first point: the scratch, at anything, ends at the update of the zero word; the output's buffer is untouched. -/
theorem triple_first (c : Dev nD) (i : grid0.Coords) (a2 : Memref sig .tc .vmem S512x128 .f32) (h2 : a2.IsWhole) (a3 : Memref sig .tc .vmem S512x128 .f32) (h3 : a3.IsWhole) (a4 : Memref sig .tc .vmem S512 .f32) (h4 : a4.IsWhole) (a5 : Memref sig .tc .vmem S512 .f32) (h5 : a5.IsWhole) (a6 : Memref sig .tc .vmem S512 .i32) (h6 : a6.IsWhole) (a7 : Memref sig .tc .vmem S512 .i32) (h7 : a7.IsWhole) (a8 : Memref sig .tc .vmem S1x1 .f32) (h8 : a8.IsWhole) (a9 : Memref sig .tc .vmem S1x1 .f32) (h9 : a9.IsWhole)
    (hc1 : cond1 i) (hc2 : ¬cond2 i)
    (x0 x1 : Vec F S512x128 .f32) (s0 s1 : Vec F S512 .f32) (l0 l1 : Vec F S512 .i32) (o : Vec F S1x1 .f32)
    (E : Set ℕ) (K : PUnit → sProp 𝕄) :
    iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare o ∗ (∃ d, owns (c : Thread nD τ) a9 fullShare d)
        ∗ (iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare o ∗ owns (c : Thread nD τ) a9 fullShare (upd i x0 x1 s0 s1 l0 l1 (k0_pay2 (F := F)))) -∗ K ⟨⟩))
      ⊢ wp frame (wpE (defs₀ (F := F)) Variants.none c none) E (cc0__contrastive_kernel i a2 h2 a3 h3 a4 h4 a5 h5 a6 h6 a7 h7 a8 h8 a9 h9) K := by
  -- the body is its sequence of memory operations over the named values; each buffer holds the one contents that reads as given
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d, %f9, %hf9, H9⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
  sl_exec (disch := first | exact hc1 | exact hc2)
  sl_step
  iapply Hk
  -- the inputs and the output's buffer are as they were
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  -- the scratch was written whole twice, the zero word and then its update: it reads as the later write,
  -- whose addend is the zero word read back, over the six blocks as loaded
  iexists _; isplitr
  swap
  · iexact H9
  ipureintro
  refine (read_writes_whole _ _ hz2 _ _ _).trans ?_
  sl_unfold_words
  simp only [View.readAt_eq_ld, View.readCov_unit_zero (S := S1x1) _ hz2, h2.read_unread, h3.read_unread, h4.read_unread, h5.read_unread, h6.read_unread, h7.read_unread, View.ld_unit_zero (S := S512x128) hz2, View.ld_unit_zero (S := S512) hz1]
  rfl

/-- At a point that is neither first nor last: the scratch goes from `acc` to its update; the output's buffer is untouched. -/
theorem triple_mid (c : Dev nD) (i : grid0.Coords) (a2 : Memref sig .tc .vmem S512x128 .f32) (h2 : a2.IsWhole) (a3 : Memref sig .tc .vmem S512x128 .f32) (h3 : a3.IsWhole) (a4 : Memref sig .tc .vmem S512 .f32) (h4 : a4.IsWhole) (a5 : Memref sig .tc .vmem S512 .f32) (h5 : a5.IsWhole) (a6 : Memref sig .tc .vmem S512 .i32) (h6 : a6.IsWhole) (a7 : Memref sig .tc .vmem S512 .i32) (h7 : a7.IsWhole) (a8 : Memref sig .tc .vmem S1x1 .f32) (h8 : a8.IsWhole) (a9 : Memref sig .tc .vmem S1x1 .f32) (h9 : a9.IsWhole)
    (hc1 : ¬cond1 i) (hc2 : ¬cond2 i)
    (x0 x1 : Vec F S512x128 .f32) (s0 s1 : Vec F S512 .f32) (l0 l1 : Vec F S512 .i32) (o acc : Vec F S1x1 .f32)
    (E : Set ℕ) (K : PUnit → sProp 𝕄) :
    iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare o ∗ owns (c : Thread nD τ) a9 fullShare acc
        ∗ (iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare o ∗ owns (c : Thread nD τ) a9 fullShare (upd i x0 x1 s0 s1 l0 l1 acc)) -∗ K ⟨⟩))
      ⊢ wp frame (wpE (defs₀ (F := F)) Variants.none c none) E (cc0__contrastive_kernel i a2 h2 a3 h3 a4 h4 a5 h5 a6 h6 a7 h7 a8 h8 a9 h9) K := by
  -- the body is its sequence of memory operations over the named values; each buffer holds the one contents that reads as given
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
  sl_exec (disch := first | exact hc1 | exact hc2)
  sl_step
  iapply Hk
  -- the inputs and the output's buffer are as they were
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  -- the scratch was written whole once: it reads as that write, the update of what it held, over the six blocks as loaded
  iexists _; isplitr
  swap
  · iexact H9
  ipureintro
  refine (read_writes_whole _ _ hz2 _ _ _).trans ?_
  sl_unfold_words
  simp only [View.readAt_eq_ld, h2.read_unread, h3.read_unread, h4.read_unread, h5.read_unread, h6.read_unread, h7.read_unread, h9.read_unread, View.ld_unit_zero (S := S512x128) hz2, View.ld_unit_zero (S := S512) hz1, View.ld_unit_zero (S := S1x1) hz2]
  rfl

/-- At the last point: the scratch goes from `acc` to its update, and the output's buffer ends at that word too. -/
theorem triple_last (c : Dev nD) (i : grid0.Coords) (a2 : Memref sig .tc .vmem S512x128 .f32) (h2 : a2.IsWhole) (a3 : Memref sig .tc .vmem S512x128 .f32) (h3 : a3.IsWhole) (a4 : Memref sig .tc .vmem S512 .f32) (h4 : a4.IsWhole) (a5 : Memref sig .tc .vmem S512 .f32) (h5 : a5.IsWhole) (a6 : Memref sig .tc .vmem S512 .i32) (h6 : a6.IsWhole) (a7 : Memref sig .tc .vmem S512 .i32) (h7 : a7.IsWhole) (a8 : Memref sig .tc .vmem S1x1 .f32) (h8 : a8.IsWhole) (a9 : Memref sig .tc .vmem S1x1 .f32) (h9 : a9.IsWhole)
    (hc1 : ¬cond1 i) (hc2 : cond2 i)
    (x0 x1 : Vec F S512x128 .f32) (s0 s1 : Vec F S512 .f32) (l0 l1 : Vec F S512 .i32) (o acc : Vec F S1x1 .f32)
    (E : Set ℕ) (K : PUnit → sProp 𝕄) :
    iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare o ∗ owns (c : Thread nD τ) a9 fullShare acc
        ∗ (iprop(owns (c : Thread nD τ) a2 fullShare x0 ∗ owns (c : Thread nD τ) a3 fullShare x1 ∗ owns (c : Thread nD τ) a4 fullShare s0 ∗ owns (c : Thread nD τ) a5 fullShare s1 ∗ owns (c : Thread nD τ) a6 fullShare l0 ∗ owns (c : Thread nD τ) a7 fullShare l1 ∗ owns (c : Thread nD τ) a8 fullShare (upd i x0 x1 s0 s1 l0 l1 acc) ∗ owns (c : Thread nD τ) a9 fullShare (upd i x0 x1 s0 s1 l0 l1 acc)) -∗ K ⟨⟩))
      ⊢ wp frame (wpE (defs₀ (F := F)) Variants.none c none) E (cc0__contrastive_kernel i a2 h2 a3 h3 a4 h4 a5 h5 a6 h6 a7 h7 a8 h8 a9 h9) K := by
  -- the body is its sequence of memory operations over the named values; each buffer holds the one contents that reads as given
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
  sl_exec (disch := first | exact hc1 | exact hc2)
  sl_step
  iapply Hk
  -- the inputs are as they were
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  -- the output's buffer was written whole with the scratch's word read back after its update
  isplitl [H8]
  · iexists _; isplitr
    swap
    · iexact H8
    ipureintro
    refine (read_writes_whole _ _ hz2 _ _ _).trans ?_
    sl_unfold_words
    simp only [View.readAt_eq_ld, View.readCov_unit_zero (S := S1x1) _ hz2, h2.read_unread, h3.read_unread, h4.read_unread, h5.read_unread, h6.read_unread, h7.read_unread, h9.read_unread, View.ld_unit_zero (S := S512x128) hz2, View.ld_unit_zero (S := S512) hz1, View.ld_unit_zero (S := S1x1) hz2]
    rfl
  -- the scratch was written whole once: it reads as that write, the update of what it held
  iexists _; isplitr
  swap
  · iexact H9
  ipureintro
  sl_unfold_words
  refine (read_writes_whole _ _ hz2 _ _ _).trans ?_
  simp only [View.readAt_eq_ld, h2.read_unread, h3.read_unread, h4.read_unread, h5.read_unread, h6.read_unread, h7.read_unread, h9.read_unread, View.ld_unit_zero (S := S512x128) hz2, View.ld_unit_zero (S := S512) hz1, View.ld_unit_zero (S := S1x1) hz2]
  rfl

end Cert.KernelIdeal.Hand

end
-- ==== Proof.KI.Body.lean ====
/-
  The pipeline's body obligation: at every grid point the kernel body, called on the windows' current staging
  buffers, takes the invariant, what the core owes and each buffer at what the pipeline left there to the
  invariant after the point and each buffer at what the proof data says the body leaves.

  Each input's buffer holds its block of the array at every point, fetched there or not; the point is the first
  (both coordinates 0), the last (both 15) or neither, which selects the body's triple; the output window is idle
  except at the last point.
-/
import proofs.«103390_j9990093931268_1_alg».proof.Proof.KI.Triple

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is which -/

/-- The first conditional's test holds at the first point only. -/
theorem hcond1 : ∀ t : Fin cfg0.N, cond1 (grid0.coords t) ↔ t.val = 0 :=
  (by decide +kernel : ∀ t : Fin grid0.N, cond1 (grid0.coords t) ↔ t.val = 0)

/-- The second conditional's test holds at the last point only. -/
theorem hcond2 : ∀ t : Fin cfg0.N, cond2 (grid0.coords t) ↔ t.val = 255 :=
  (by decide +kernel : ∀ t : Fin grid0.N, cond2 (grid0.coords t) ↔ t.val = 255)

/-! ## Where the windows are idle -/

/-- The inputs are never idle. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
/-- Away from the last point the output window is idle, -/
theorem idleAt_6 : ∀ t : Fin cfg0.N, ¬cond2 (grid0.coords t) → cfg0.idle 6 (grid0.coords t) = true := by decide +kernel
/-- and its block is not written back; -/
theorem noFlush_6 : ∀ t : Fin cfg0.N, ¬cond2 (grid0.coords t) → (cfg0.win 6).flush t = false := by decide +kernel
/-- at the last point it is live. -/
theorem liveAt_6 : ∀ t : Fin cfg0.N, cond2 (grid0.coords t) → cfg0.idle 6 (grid0.coords t) = false := by decide +kernel

/-! ## What the inputs' buffers hold -/

/-- Each input's current staging buffer holds its block at every point, fetched there or not: unfetched, the
    block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The invariant at a point -/

/-- Before the first point the scratch is at anything. -/
theorem PhiS_zero (c : Dev nD) (n : ℕ) (hz : n = 0) :
    PhiS m c n = iprop(∃ d, owns (c : Thread nD τ) scM fullShare d) := by
  subst hz; rfl

/-- After point `n` the scratch holds what the points up to `n` have summed. -/
theorem PhiS_succ (c : Dev nD) (n : ℕ) :
    PhiS m c (n + 1) = owns (c : Thread nD τ) scM fullShare (accAt m c (n + 1)) := rfl

/-- Before the first point nothing has been summed: the scratch's word is the zero word. -/
theorem accAt_zero (c : Dev nD) (n : ℕ) (hz : n = 0) : accAt m c n = k0_pay2 (F := F) := by
  subst hz; rfl

/-! ## The body obligation, at a generic point -/

/-- Each window's current staging memref at point `t`, at its literal type. -/
abbrev ms0 (t : Fin cfg0.N) : Memref sig .tc .vmem S512x128 .f32 := win0_0.stage (cfg0.slots t 0)
abbrev ms1 (t : Fin cfg0.N) : Memref sig .tc .vmem S512x128 .f32 := win0_1.stage (cfg0.slots t 1)
abbrev ms2 (t : Fin cfg0.N) : Memref sig .tc .vmem S512 .f32 := win0_2.stage (cfg0.slots t 2)
abbrev ms3 (t : Fin cfg0.N) : Memref sig .tc .vmem S512 .f32 := win0_3.stage (cfg0.slots t 3)
abbrev ms4 (t : Fin cfg0.N) : Memref sig .tc .vmem S512 .i32 := win0_4.stage (cfg0.slots t 4)
abbrev ms5 (t : Fin cfg0.N) : Memref sig .tc .vmem S512 .i32 := win0_5.stage (cfg0.slots t 5)
abbrev ms6 (t : Fin cfg0.N) : Memref sig .tc .vmem S1x1 .f32 := win0_6.stage (cfg0.slots t 6)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A live input window's post: its buffer at its block. -/
theorem leaves_0 (c : Dev nD) (t : Fin cfg0.N) :
    (dats m 0 c).leavesExact 0 t = owns (c : Thread nD τ) (ms0 t) fullShare (iblk m c 0 t) := by
  unfold Dat.leavesExact; rw [liveAt_0 t, after0_0]
theorem leaves_1 (c : Dev nD) (t : Fin cfg0.N) :
    (dats m 0 c).leavesExact 1 t = owns (c : Thread nD τ) (ms1 t) fullShare (iblk m c 1 t) := by
  unfold Dat.leavesExact; rw [liveAt_1 t, after0_1]
theorem leaves_2 (c : Dev nD) (t : Fin cfg0.N) :
    (dats m 0 c).leavesExact 2 t = owns (c : Thread nD τ) (ms2 t) fullShare (iblk m c 2 t) := by
  unfold Dat.leavesExact; rw [liveAt_2 t, after0_2]
theorem leaves_3 (c : Dev nD) (t : Fin cfg0.N) :
    (dats m 0 c).leavesExact 3 t = owns (c : Thread nD τ) (ms3 t) fullShare (iblk m c 3 t) := by
  unfold Dat.leavesExact; rw [liveAt_3 t, after0_3]
theorem leaves_4 (c : Dev nD) (t : Fin cfg0.N) :
    (dats m 0 c).leavesExact 4 t = owns (c : Thread nD τ) (ms4 t) fullShare (iblk m c 4 t) := by
  unfold Dat.leavesExact; rw [liveAt_4 t, after0_4]
theorem leaves_5 (c : Dev nD) (t : Fin cfg0.N) :
    (dats m 0 c).leavesExact 5 t = owns (c : Thread nD τ) (ms5 t) fullShare (iblk m c 5 t) := by
  unfold Dat.leavesExact; rw [liveAt_5 t, after0_5]
/-- The output window's post away from the last point: its buffer at what it was handed; -/
theorem leaves_6_idle (c : Dev nD) (t : Fin cfg0.N) (h2 : ¬cond2 (grid0.coords t)) :
    (dats m 0 c).leavesExact 6 t = iprop(∃ d, owns (c : Thread nD τ) (ms6 t) fullShare ((dats m 0 c).before 6 t d)) :=
  Dat.leavesExact_idle (dats m 0 c) 6 t (idleAt_6 t h2) (noFlush_6 t h2)
/-- at the last point: at the scratch's word after the point. -/
theorem leaves_6_last (c : Dev nD) (t : Fin cfg0.N) (h2 : cond2 (grid0.coords t)) :
    (dats m 0 c).leavesExact 6 t = owns (c : Thread nD τ) (ms6 t) fullShare (accAt m c (t.val + 1)) := by
  unfold Dat.leavesExact; rw [liveAt_6 t h2, after0_6]

set_option maxHeartbeats 4000000 in
/-- The body at any point. The inputs' memrefs hold their blocks; the closed forms say which of the three cases
    the point is in; the invariant hands the body the scratch (at anything at the first point, afterwards at the
    sum so far) and takes it back at the sum with this point's tile added; the output's buffer comes back as it
    was handed, except at the last point, where it ends at the scratch's word; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from rfl]
  rw [leaves_0, leaves_1, leaves_2, leaves_3, leaves_4, leaves_5]
  rw [accAt_succ]
  by_cases h1 : t.val = 0
  · have h2 : ¬t.val = 255 := by omega
    have hc1 : cond1 (grid0.coords t) := (hcond1 t).mpr h1
    have hc2 : ¬cond2 (grid0.coords t) := fun h => h2 ((hcond2 t).mp h)
    rw [leaves_6_idle m c t hc2, PhiS_zero m c _ h1, accAt_zero m c _ h1]
    iintro ⟨HS, Ho, ⟨%d0, H0⟩, ⟨%d1, H1⟩, ⟨%d2, H2⟩, ⟨%d3, H3⟩, ⟨%d4, H4⟩, ⟨%d5, H5⟩, ⟨%d6, H6⟩⟩
    iapply (triple_first c (grid0.coords t) _ _ _ _ _ _ _ _ _ _ _ _ _ _ _ _ hc1 hc2
      (xI m c t) (xJ m c t) (sI m c t) (sJ m c t) (lI m c t) (lJ m c t) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc1 : ¬cond1 (grid0.coords t) := fun h => h1 ((hcond1 t).mp h)
    rw [PhiS_pos m c _ h1]
    by_cases h2 : t.val = 255
    · have hc2 : cond2 (grid0.coords t) := (hcond2 t).mpr h2
      rw [leaves_6_last m c t hc2, accAt_succ]
      iintro ⟨HS, Ho, ⟨%d0, H0⟩, ⟨%d1, H1⟩, ⟨%d2, H2⟩, ⟨%d3, H3⟩, ⟨%d4, H4⟩, ⟨%d5, H5⟩, ⟨%d6, H6⟩⟩
      iapply (triple_last c (grid0.coords t) _ _ _ _ _ _ _ _ _ _ _ _ _ _ _ _ hc1 hc2
        (xI m c t) (xJ m c t) (sI m c t) (sJ m c t) (lI m c t) (lJ m c t) ((dats m 0 c).before 6 t d6) (accAt m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬cond2 (grid0.coords t) := fun h => h2 ((hcond2 t).mp h)
      rw [leaves_6_idle m c t hc2]
      iintro ⟨HS, Ho, ⟨%d0, H0⟩, ⟨%d1, H1⟩, ⟨%d2, H2⟩, ⟨%d3, H3⟩, ⟨%d4, H4⟩, ⟨%d5, H5⟩, ⟨%d6, H6⟩⟩
      iapply (triple_mid c (grid0.coords t) _ _ _ _ _ _ _ _ _ _ _ _ _ _ _ _ hc1 hc2
        (xI m c t) (xJ m c t) (sI m c t) (sJ m c t) (lI m c t) (lJ m c t) ((dats m 0 c).before 6 t d6) (accAt m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Shares.lean ====
/-
  The region's entry and exit, for the arrays.

  Three arrays (the embeddings, the row norms, the labels) are each read through two windows, so the pipeline
  holds each of them as two halves of the full share, one per window; the output array is held whole. At entry
  the core's unscoped buffers, whole at the entry contents, are sorted into those holdings and the rest; at exit
  the halves are joined again and, with the output at the scratch's final word, make the unscoped buffers whole
  at the valuation the host operations after the region start from.
-/
import proofs.«103390_j9990093931268_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The valuation after the region: the entry valuation with the output array at the scratch's final word. -/
abbrev V1 (c : Dev nD) : Valuation τ sig (Elt F) :=
  StableHlo.after [StableHlo.nullary main_v2 (accAt m c 256 : (⟨S1x1, .f32⟩ : BufTy).Contents (Elt F))] (V0 m c)

/-! ## The one-word output -/

/-- The output's shape has one index. -/
theorem idx_sub (i j : S1x1.Idx) : i = j := by
  funext a
  have h1 : S1x1.size a = 1 := by revert a; decide
  apply Fin.ext
  have hi : (i a).val < 1 := lt_of_lt_of_eq (i a).isLt h1
  have hj : (j a).val < 1 := lt_of_lt_of_eq (j a).isLt h1
  omega

/-- The output's block is not empty on any axis, at any point. -/
theorem xsize_pos6 (i : grid0.Coords) (a : Fin 2) : 0 < (win0_6.xblock i).size a :=
  (by decide : ∀ a : Fin 2, 0 < S1x1.size a) a

/-- The output array after the last write-back holds the scratch's final word. -/
theorem arrAt_out (c : Dev nD) : (dats m 0 c).arrAt 6 cfg0.N = accAt m c 256 := by
  -- the last point writes the output's block back, and the block is the whole one-word array:
  -- whatever the array held, it ends at what that point flushed
  have h255 : (255 : ℕ) < cfg0.N := by decide
  have hfl : (cfg0.win 6).flush ⟨255, h255⟩ = true := (flush0_6 ⟨255, h255⟩).mpr rfl
  have hN : cfg0.N = 255 + 1 := N_0
  rw [hN]
  refine ((dats m 0 c).arrAt_succ 6 ⟨255, h255⟩).trans ?_
  rw [if_pos hfl]
  have hnum : 0 < ((cfg0.win 6).xblock (cfg0.grid.coords ⟨255, h255⟩)).numel := Shape.numel_pos (xsize_pos6 _)
  funext i
  have hi : i = ((cfg0.win 6).blk ⟨255, h255⟩).view.emb (Shape.Idx.first hnum) := idx_sub _ _
  rw [hi, View.write_emb_of_mem _ _ (Finset.mem_univ _)]
  show _root_.cast _ ((cfg0.win 6).cut _ ((dats m 0 c).after 6 ⟨255, h255⟩) _) = _
  rw [after0_6]
  exact (cast_eq _ _).trans (congrArg (accAt m c 256) (idx_sub _ _))

/-- Every window but the last is an input. -/
theorem isOut_in : ∀ w : Fin 7, w ≠ 6 → (win0 w).isOut = false := by decide

/-- An input array is never written. -/
theorem arrAt_in (c : Dev nD) (w : Fin cfg0.W) (hw : w ≠ 6) (n : ℕ) : (dats m 0 c).arrAt w n = V m c (Pipeline.arrRef spec0 w) := by
  rw [Pipeline.Dat.arrAt_in (dats m 0 c) w (isOut_in w hw) n]
  exact A_eq m c w

/-! ## The holdings, window by window and buffer by buffer -/

/-- A window's array is a whole buffer: its points-to is the buffer's. -/
theorem win_pt (c : Dev nD) (w : Fin 7) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [(arr_whole0 w).set_eq_univ]

/-- Only the last window is an output. -/
theorem isOut0 : ∀ w : Fin 7, (win0 w).isOut = decide (w = 6) := by decide

/-- An input is held at its window's own share, -/
theorem share_in (c : Dev nD) (w : Fin 7) (hw : w ≠ 6) : (dats m 0 c).share w = (dats m 0 c).q w := by
  unfold Dat.share
  rw [if_neg]
  rw [show (cfg0.win w).isOut = decide (w = 6) from isOut0 w]
  simpa using hw

/-- the output at the full share. -/
theorem share_out (c : Dev nD) : (dats m 0 c).share 6 = fullShare := by
  unfold Dat.share
  split <;> rfl

/-- The seven windows sit on four buffers. -/
theorem image_arr : Finset.univ.image (Pipeline.arrRef spec0) = [main_arg0, main_v1, main_arg1, main_v2].toFinset := by decide

/-- The buffers behind the windows' arrays, one by one. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_v1) ↦{fullShare} Vv main_v1)
          ∗ (((c : Thread nD τ).loc main_arg1) ↦{fullShare} Vv main_arg1) ∗ (((c : Thread nD τ).loc main_v2) ↦{fullShare} Vv main_v2)) := by
  unfold Pipeline.arrBufs
  exact bigSep_eq_bigSepL_of_eq _ image_arr (by decide) _

/-- The pipeline's arrays, one by one: each input buffer as its two halves, the output whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v1) ↦{fullShare.left} G 2) ∗ (((c : Thread nD τ).loc main_v1) ↦{fullShare.right} G 3)
          ∗ (((c : Thread nD τ).loc main_arg1) ↦{fullShare.left} G 4) ∗ (((c : Thread nD τ).loc main_arg1) ↦{fullShare.right} G 5)
          ∗ (((c : Thread nD τ).loc main_v2) ↦{fullShare} G 6)) := by
  unfold Dat.arrays
  rw [Gen.bigSep_W0]
  rw [win_pt c 0, win_pt c 1, win_pt c 2, win_pt c 3, win_pt c 4, win_pt c 5, win_pt c 6,
    share_in m c 0 (by decide), share_in m c 1 (by decide), share_in m c 2 (by decide), share_in m c 3 (by decide),
    share_in m c 4 (by decide), share_in m c 5 (by decide), share_out m c]
  rfl

/-! ## The valuation after the region -/

/-- Off the output array it is the entry valuation; -/
theorem V1_ne (c : Dev nD) (r : Ref sig .tc) (h : r ≠ main_v2) : V1 m c (Proc.devRef .tc r) = V m c r := by
  show StableHlo.after _ (V0 m c) (Proc.devRef .tc r) = V0 m c (Proc.devRef .tc r)
  rw [StableHlo.after_cons, StableHlo.after_nil, StableHlo.nullary_result_ne _ _ _ _ h]

/-- at the output array it is the scratch's final word. -/
theorem V1_out (c : Dev nD) : V1 m c (Proc.devRef .tc main_v2) = accAt m c 256 := by
  show StableHlo.after _ (V0 m c) (Proc.devRef .tc main_v2) = _
  rw [StableHlo.after_cons, StableHlo.after_nil, StableHlo.nullary_result]

/-! ## Entry and exit -/

/-- ENTRY: the unscoped buffers at the entry contents are the pipeline's arrays at its shares, and the rest. -/
theorem entry_split (c : Dev nD) :
    (unscopedBufs c (V m c) : sProp 𝕄)
      ⊢ iprop((dats m 0 c).arrays ((dats m 0 c).arrAt · 0) ∗ Pipeline.unscopedRest spec0 c (V m c)) := by
  rw [Pipeline.unscopedBufs_split₀ cfgs 0 winFacts₀0.arr_unscoped c (V m c)]
  refine BI.sep_mono ?_ (Entails.refl _)
  show (Pipeline.arrBufs spec0 c (V m c) : sProp 𝕄) ⊢ _
  rw [arrBufs_eq, arrays_chain]
  -- each input buffer, whole, is its two halves; before any write-back an array holds its entry contents
  iintro ⟨H0, H1, H2, H3⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  ihave H2 := (pointsTo_share (PosShare.mem_left_op_right fullShare)).1 $$ H2
  icases H2 with ⟨H2l, H2r⟩
  isplitl [H0l]; · iexact H0l
  isplitl [H0r]; · iexact H0r
  isplitl [H1l]; · iexact H1l
  isplitl [H1r]; · iexact H1r
  isplitl [H2l]; · iexact H2l
  isplitl [H2r]; · iexact H2r
  iexact H3

/-- EXIT: the arrays at their final contents and the rest are the unscoped buffers at the valuation after the region. -/
theorem exit_join (c : Dev nD) :
    iprop((dats m 0 c).arrays ((dats m 0 c).arrAt · cfg0.N) ∗ Pipeline.unscopedRest spec0 c (V m c))
      ⊢ (unscopedBufs c (fun b => V1 m c (Proc.devRef .tc b)) : sProp 𝕄) := by
  rw [Pipeline.unscopedBufs_split₀ cfgs 0 winFacts₀0.arr_unscoped c (fun b => V1 m c (Proc.devRef .tc b))]
  refine BI.sep_mono ?_ ?_
  · show _ ⊢ (Pipeline.arrBufs spec0 c (fun b => V1 m c (Proc.devRef .tc b)) : sProp 𝕄)
    -- the inputs end as they began, the output at the scratch's final word; the two halves of a buffer join
    rw [arrBufs_eq, arrays_chain,
      arrAt_in m c 0 (by decide), arrAt_in m c 1 (by decide), arrAt_in m c 2 (by decide), arrAt_in m c 3 (by decide),
      arrAt_in m c 4 (by decide), arrAt_in m c 5 (by decide), arrAt_out m c,
      V1_ne m c main_arg0 (by decide), V1_ne m c main_v1 (by decide), V1_ne m c main_arg1 (by decide), V1_out m c]
    iintro ⟨H0l, H0r, H1l, H1r, H2l, H2r, H3⟩
    ihave H0 := (pointsTo_share (PosShare.mem_left_op_right fullShare)).2 $$ [H0l H0r]
    · isplitl [H0l] <;> iassumption
    ihave H1 := (pointsTo_share (PosShare.mem_left_op_right fullShare)).2 $$ [H1l H1r]
    · isplitl [H1l] <;> iassumption
    ihave H2 := (pointsTo_share (PosShare.mem_left_op_right fullShare)).2 $$ [H2l H2r]
    · isplitl [H2l] <;> iassumption
    isplitl [H0]; · iexact H0
    isplitl [H1]; · iexact H1
    isplitl [H2]; · iexact H2
    iexact H3
  · show (Pipeline.unscopedRest spec0 c (V m c) : sProp 𝕄) ⊢ Pipeline.unscopedRest spec0 c (fun b => V1 m c (Proc.devRef .tc b))
    -- the buffers that are no window's array are not the output array
    rw [unscopedRest0_eq, unscopedRest0_eq,
      V1_ne m c main_v0 (by decide), V1_ne m c main_cst (by decide), V1_ne m c main_v3 (by decide),
      V1_ne m c main_cst_0 (by decide), V1_ne m c main_v4 (by decide), V1_ne m c main_v5 (by decide)]

end Cert.KernelIdeal.Hand

end
-- ==== Proof.KI.Run.lean ====
/-
  The run of the whole program, for any float instance: three host operations (the squares, the zero, the row
  sums), the pipelined region, four host operations (reshape, the pair count, the quotient, reshape).

  The program is taken as a list of segments: a host stretch over the core's unscoped buffers held whole at a
  valuation, the region, a host stretch. The region is entered from the buffers as the first stretch left them,
  the three shared arrays split by halves among their windows and the rest bypassing; it is left with the halves
  joined again and the output array at the scratch's final word, which is the valuation the second stretch
  starts from. At the end the three buffers the claims speak of are read back.
-/
import proofs.«103390_j9990093931268_1_alg».proof.Proof.KI.Body
import proofs.«103390_j9990093931268_1_alg».proof.Proof.KI.Shares
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the proof's. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host operations: that the core owes nothing. -/
abbrev R (c : Dev nD) : sProp 𝕄 := iprop(∃ W, owes (c : Thread nD τ) (0 : CellTallies nD τ sig Unit) W)

/-- The launch element: the pipeline library's, at the staging cells. -/
def u₀ : UR sig nD τ := initOf (Pipeline.cells cfgs cellOf_inj) (Pipeline.launchToks cfgs cellOf_inj)

/-- The valuation at the end: after the four host operations that follow the region. -/
abbrev V2 (c : Dev nD) : Valuation τ sig (Elt F) := StableHlo.after hostOps1 (V1 m c)

/-- The host stretch before the region. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vl m) R

/-- The host stretch after the region. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V1 m) R

set_option backward.isDefEq.respectTransparency.types false in
/-- The region: entered from what the first stretch left, the arrays sorted among the windows and the rest bypassing;
    left with the buffers whole again at the valuation the second stretch starts from. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm]
    iintro ⟨⟨Hub, HO⟩, -, -⟩
    ihave H := (entry_split m c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 from rfl]; unfold PhiS
    rw [scopedRest0_eq]; simp only [scM, owns_whole]
    iintro ⟨-, -, Hr⟩; iexact Hr
  hout c := by
    rw [show (dats m 0 c).Φ (Fin.last cfg0.N) = PhiS m c (Fin.last cfg0.N).val from rfl,
      PhiS_pos m c _ (by rw [Fin.val_last]; have : cfg0.N = 256 := N_0; omega)]
    rw [Pipeline.ownSems0_none, scopedRest0_eq]
    simp only [scM, owns_whole]
    iintro H
    isplitr; · iempintro
    isplitr; · iempintro
    iexists _; iexact H
  hexit c := by
    rw [show StableHlo.held (c : Thread nD τ) (Pipeline.ucRefs τ sig) (V1 m c) = unscopedBufs c (fun b => V1 m c (Proc.devRef .tc b)) from (Pipeline.unscopedBufs_held c _).symm]
    iintro ⟨Ha, HO, -, HZ⟩
    imodintro
    isplitr [HO]
    · iapply (exit_join m c)
      isplitl [Ha] <;> iassumption
    · unfold Pipeline.Dat.owesAt Pipeline.owesWithin
      icases HO with ⟨%W, -, HO⟩; iexists W; iexact HO

/-- The program as the list of the three. -/
abbrev segs : List (Pipeline.Seg (pcfgs (F := F)) adm (dats m) () defs₀ 𝒱₀ L lv) := [.host (seg0 m), .region (reg0 m), .host (seg1 m)]

/-- What is read at the end on core `c`: the result buffer and the two arguments at the final valuation. -/
abbrev QC (c : Dev nD) (s : MemSt nD τ sig (Elt F)) : Prop :=
  s.mem ((c : Thread nD τ).loc main_v5) = V2 m c (Proc.devRef .tc main_v5)
    ∧ s.mem ((c : Thread nD τ).loc main_arg0) = V2 m c (Proc.devRef .tc main_arg0)
    ∧ s.mem ((c : Thread nD τ).loc main_arg1) = V2 m c (Proc.devRef .tc main_arg1)

set_option backward.isDefEq.respectTransparency.types false in
/-- From any memory with zero counters every weakly fair execution of the program terminates, nothing faulting, with the
    result and the arguments at the final valuation. -/
theorem run_main : θ_run defs (onTc (τ := τ) (main (F := F))) (s₀ m ρ) (fun r => ∀ c : Dev nD, QC m c r.2) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (V2 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => QC m c s)
    (hfin := fun c s' => by
      unfold StableHlo.held
      iintro ⟨Hh, HSI⟩
      ihave Hr := (pointsTo_read_all (Pipeline.ucRefs τ sig) (fun b => ((c : Thread nD τ).1, b)) (fun b => V2 m c b) s') $$ [Hh HSI]
      · isplitl [Hh] <;> iassumption
      icases Hr with ⟨%ha, HSI⟩
      imodintro
      isplitr
      · ipureintro
        exact ⟨ha (Proc.devRef .tc main_v5) (show Proc.devRef .tc main_v5 ∈ Pipeline.ucRefs τ sig by decide),
          ha (Proc.devRef .tc main_arg0) (show Proc.devRef .tc main_arg0 ∈ Pipeline.ucRefs τ sig by decide),
          ha (Proc.devRef .tc main_arg1) (show Proc.devRef .tc main_arg1 ∈ Pipeline.ucRefs τ sig by decide)⟩
      iexact HSI)
    (hQ := fun _ h => h)

end Cert.KernelIdeal.Hand

end
-- ==== Proof.KI.Final.lean ====
/-
  What the program's buffers hold at the end, for any float instance: the two arguments are as launched (no
  operation and no write-back touches them), and the result is the scratch's final word, reshaped to a scalar,
  divided by the number of pairs, and reshaped to one element.
-/
import proofs.«103390_j9990093931268_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first argument ends as launched. -/
theorem V2_arg0 (c : Dev nD) : V2 m c (Proc.devRef .tc main_arg0) = m ((c : Thread nD τ).loc main_arg0) := by
  dsimp only [V2, V1, V0, Vl, hostOps1, hostOps0]
  after_results

/-- The second argument ends as launched. -/
theorem V2_arg1 (c : Dev nD) : V2 m c (Proc.devRef .tc main_arg1) = m ((c : Thread nD τ).loc main_arg1) := by
  dsimp only [V2, V1, V0, Vl, hostOps1, hostOps0]
  after_results

/-- The result: the final word over the number of pairs. -/
theorem V2_out (c : Dev nD) :
    V2 m c (Proc.devRef .tc main_v5)
      = (shapeCast S1 (Host.divf (shapeCast S_ (accAt m c 256 : (⟨S1x1, .f32⟩ : BufTy).Contents (Elt F)) shapeCasts_S1x1_S_)
          (constant S_ .f32 0x4BFFF800#32)) shapeCasts_S_S1 : (⟨S1, .f32⟩ : BufTy).Contents (Elt F)) := by
  dsimp only [V2, V1, V0, hostOps1]
  after_results
  rfl

/-- The embeddings the region reads are the first argument as launched; -/
theorem V_arg0 (c : Dev nD) : V m c main_arg0 = m ((c : Thread nD τ).loc main_arg0) := by
  dsimp only [V, V0, Vl, hostOps0]
  after_results

/-- the labels are the second argument as launched; -/
theorem V_arg1 (c : Dev nD) : V m c main_arg1 = m ((c : Thread nD τ).loc main_arg1) := by
  dsimp only [V, V0, Vl, hostOps0]
  after_results

/-- and the row norms are the row sums of the squares of the first argument. -/
theorem V_sq (c : Dev nD) :
    V m c main_v1 = (Host.reduceAdd (mulf (m ((c : Thread nD τ).loc main_arg0) : (⟨S8192x128, .f32⟩ : BufTy).Contents (Elt F)) (m ((c : Thread nD τ).loc main_arg0)))
      (constant S_ .f32 0x00000000#32) reducesTo_S8192x128_S8192_d1 h_S_ : (⟨S8192, .f32⟩ : BufTy).Contents (Elt F)) := by
  dsimp only [V, V0, Vl, hostOps0]
  after_results

/-- THE FRAME: the program runs, faults nowhere, and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V2_arg0 m c), (h c).2.2.trans (V2_arg1 m c)⟩) (run_main m ρ)

/-- THE RUN WITH ITS RESULT: the same, with the result buffer at the final word over the number of pairs. -/
theorem run_value : θ_run defs (onTc (τ := τ) (main (F := F))) ⟨m, fun _ => 0, ρ⟩ (fun r => ∀ c : Dev nD,
      r.2.mem ((c.tc : Thread nD τ).loc main_v5)
        = (shapeCast S1 (Host.divf (shapeCast S_ (accAt m c 256 : (⟨S1x1, .f32⟩ : BufTy).Contents (Elt F)) shapeCasts_S1x1_S_)
            (constant S_ .f32 0x4BFFF800#32)) shapeCasts_S_S1 : (⟨S1, .f32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (V2_out m c), (h c).2.1.trans (V2_arg0 m c), (h c).2.2.trans (V2_arg1 m c)⟩) (run_main m ρ)

end Cert.KernelIdeal.Hand

end
-- ==== Proof.Spec.lean ====
/-
  The contrastive loss's summand, as one function of the row index, the column index and the three arrays,
  on the extended reals: what both programs sum over all pairs (r, c) before dividing by the number of pairs.

  For rows r, c with squared norms sq r, sq c and inner product ⟨x r, x c⟩ the squared distance is
  max (sq r + sq c - 2 ⟨x r, x c⟩) 0. A pair with equal labels contributes 1 · d²; a pair with different labels
  contributes (max (1 - sqrt d²) 0)², the square root taken of 1 instead wherever the pair is not counted; and only
  the pairs r < c are counted (the factor 1 or 0).
-/
import Idealize.ShloMosaic.PureOps.Ideal
import Idealize.ShloMosaic.Lib.ValueIdx

noncomputable section

namespace Cert.Spec

open Idealize.ShloMosaic

/-- The three float literals of the summand (2, 0, 1), as the words both programs print. -/
abbrev two : EReal := Ideal.ofBits .f32 0x40000000#32
abbrev zero : EReal := Ideal.ofBits .f32 0x00000000#32
abbrev one : EReal := Ideal.ofBits .f32 0x3F800000#32

/-- The inner product of rows `r` and `c`. -/
def dot (x : Fin 8192 → Fin 128 → EReal) (r c : Fin 8192) : EReal := ∑ k : Fin 128, x r k * x c k

/-- The clamped squared distance of rows `r` and `c`. -/
def d2 (x : Fin 8192 → Fin 128 → EReal) (sq : Fin 8192 → EReal) (r c : Fin 8192) : EReal :=
  max (sq r + sq c - two * dot x r c) zero

/-- The hinge term of a pair with different labels. -/
def hinge (x : Fin 8192 → Fin 128 → EReal) (sq : Fin 8192 → EReal) (lbl : Fin 8192 → BitVec 32) (r c : Fin 8192) : EReal :=
  max (one - Ideal.sqrt (if r.val < c.val ∧ lbl r ≠ lbl c then d2 x sq r c else one)) zero

/-- The summand at the pair `(r, c)`. -/
def term (x : Fin 8192 → Fin 128 → EReal) (sq : Fin 8192 → EReal) (lbl : Fin 8192 → BitVec 32) (r c : Fin 8192) : EReal :=
  (if lbl r = lbl c then one * d2 x sq r c else hinge x sq lbl r c * hinge x sq lbl r c) * (if r.val < c.val then 1 else 0)

/-- Row `a` of row block `p` (blocks of 512 rows). -/
def row (p : Fin 16) (a : Fin 512) : Fin 8192 := ⟨512 * p.val + a.val, by have := p.isLt; have := a.isLt; omega⟩

/-- The sum over the tile (p, q): what one grid point adds. -/
def tileSum (x : Fin 8192 → Fin 128 → EReal) (sq : Fin 8192 → EReal) (lbl : Fin 8192 → BitVec 32) (p q : Fin 16) : EReal :=
  ∑ a : Fin 512, ∑ b : Fin 512, term x sq lbl (row p a) (row q b)

/-- The sum over all pairs. -/
def total (x : Fin 8192 → Fin 128 → EReal) (sq : Fin 8192 → EReal) (lbl : Fin 8192 → BitVec 32) : EReal :=
  ∑ r : Fin 8192, ∑ c : Fin 8192, term x sq lbl r c

end Cert.Spec

end
-- ==== Proof.SumBlocks.lean ====
/-
  The sum over all pairs, tile by tile: the 8192 x 8192 pairs are the 256 tiles of 512 x 512 pairs, tile
  t = 16 p + q holding the pairs of row block p with row block q; and a running sum that starts at zero and adds
  one tile's sum per step ends, after 256 steps, at the sum over all pairs.
-/
import proofs.«103390_j9990093931268_1_alg».proof.Proof.Spec
import Mathlib.Algebra.BigOperators.Group.Finset.Defs
import Mathlib.Algebra.BigOperators.Group.Finset.Basic
import Mathlib.Algebra.BigOperators.Group.Finset.Sigma
import Mathlib.Algebra.BigOperators.Fin
import Mathlib.Data.Fintype.BigOperators

noncomputable section

namespace Cert.Spec

open Idealize.ShloMosaic

/-- The row block and the column block of tile `t`. -/
def tp (t : Fin 256) : Fin 16 := ⟨t.val / 16, by have := t.isLt; omega⟩
def tq (t : Fin 256) : Fin 16 := ⟨t.val % 16, by omega⟩

/-- A row index is a block `p` and a place `a` in the block: `r = 512 p + a`, with `p = r / 512`, `a = r % 512`. -/
def rowEquiv : Fin 16 × Fin 512 ≃ Fin 8192 where
  toFun pa := row pa.1 pa.2
  invFun r := (⟨r.val / 512, by have := r.isLt; omega⟩, ⟨r.val % 512, by omega⟩)
  left_inv := by
    rintro ⟨p, a⟩
    have hp := p.isLt
    have ha := a.isLt
    refine Prod.ext (Fin.ext ?_) (Fin.ext ?_)
    · show (512 * p.val + a.val) / 512 = p.val
      omega
    · show (512 * p.val + a.val) % 512 = a.val
      omega
  right_inv := by
    intro r
    refine Fin.ext ?_
    show 512 * (r.val / 512) + r.val % 512 = r.val
    omega

/-- A tile index is a row block and a column block: `t = 16 p + q`, with `p = t / 16`, `q = t % 16`. -/
def tileEquiv : Fin 256 ≃ Fin 16 × Fin 16 where
  toFun t := (tp t, tq t)
  invFun pq := ⟨16 * pq.1.val + pq.2.val, by have := pq.1.isLt; have := pq.2.isLt; omega⟩
  left_inv := by
    intro t
    refine Fin.ext ?_
    show 16 * (t.val / 16) + t.val % 16 = t.val
    omega
  right_inv := by
    rintro ⟨p, q⟩
    have hp := p.isLt
    have hq := q.isLt
    refine Prod.ext (Fin.ext ?_) (Fin.ext ?_)
    · show (16 * p.val + q.val) / 16 = p.val
      omega
    · show (16 * p.val + q.val) % 16 = q.val
      omega

/-- A sum over the 8192 rows is the sum over the 16 blocks of the sums over each block's 512 rows. -/
theorem sum_rows {M : Type*} [AddCommMonoid M] (F : Fin 8192 → M) :
    ∑ r : Fin 8192, F r = ∑ p : Fin 16, ∑ a : Fin 512, F (row p a) := by
  rw [← Equiv.sum_comp rowEquiv F, Fintype.sum_prod_type]
  rfl

/-- A sum over the 256 tiles is the sum over the pairs of a row block and a column block. -/
theorem sum_tiles {M : Type*} [AddCommMonoid M] (H : Fin 16 → Fin 16 → M) :
    ∑ t : Fin 256, H (tp t) (tq t) = ∑ p : Fin 16, ∑ q : Fin 16, H p q := by
  rw [← Fintype.sum_prod_type' H, ← Equiv.sum_comp tileEquiv (fun pq : Fin 16 × Fin 16 => H pq.1 pq.2)]
  rfl

/-- The regrouping, for any summand with values in a commutative monoid: the sum over all pairs of rows is the sum,
    over the tiles, of the sums over each tile's pairs. -/
theorem sum_pairs_eq_tiles {M : Type*} [AddCommMonoid M] (G : Fin 8192 → Fin 8192 → M) :
    ∑ r : Fin 8192, ∑ c : Fin 8192, G r c
      = ∑ t : Fin 256, ∑ a : Fin 512, ∑ b : Fin 512, G (row (tp t) a) (row (tq t) b) := by
  calc ∑ r : Fin 8192, ∑ c : Fin 8192, G r c
      = ∑ p : Fin 16, ∑ a : Fin 512, ∑ c : Fin 8192, G (row p a) c :=
        -- the rows, block by block
        sum_rows (fun r => ∑ c : Fin 8192, G r c)
    _ = ∑ p : Fin 16, ∑ a : Fin 512, ∑ q : Fin 16, ∑ b : Fin 512, G (row p a) (row q b) :=
        -- for each row, the columns, block by block
        Finset.sum_congr rfl fun p _ => Finset.sum_congr rfl fun a _ => sum_rows (fun c => G (row p a) c)
    _ = ∑ p : Fin 16, ∑ q : Fin 16, ∑ a : Fin 512, ∑ b : Fin 512, G (row p a) (row q b) :=
        -- the sum over a block's rows and the sum over the column blocks change places
        Finset.sum_congr rfl fun p _ => Finset.sum_comm
    _ = ∑ t : Fin 256, ∑ a : Fin 512, ∑ b : Fin 512, G (row (tp t) a) (row (tq t) b) :=
        -- the pairs of blocks are the tiles
        (sum_tiles (fun p q => ∑ a : Fin 512, ∑ b : Fin 512, G (row p a) (row q b))).symm

/-- The sum over all pairs is the sum of the tiles' sums. -/
theorem total_eq_tiles (x : Fin 8192 → Fin 128 → EReal) (sq : Fin 8192 → EReal) (lbl : Fin 8192 → BitVec 32) :
    total x sq lbl = ∑ t : Fin 256, tileSum x sq lbl (tp t) (tq t) := by
  unfold total tileSum
  exact sum_pairs_eq_tiles (term x sq lbl)

/-- The literal zero is the extended real zero. -/
theorem zero_eq : zero = 0 := by simp [zero, Ideal.ofBits, Ideal.ieee]

/-- A running sum from zero, one tile per step (each step adding zero plus the tile's sum), ends at zero plus the total. -/
theorem fold_eq (x : Fin 8192 → Fin 128 → EReal) (sq : Fin 8192 → EReal) (lbl : Fin 8192 → BitVec 32) (f : ℕ → EReal)
    (h0 : f 0 = zero) (hs : ∀ t : Fin 256, f (t.val + 1) = f t.val + (zero + tileSum x sq lbl (tp t) (tq t))) :
    f 256 = zero + total x sq lbl := by
  -- the tiles' sums as a function of a natural number (zero past the last tile)
  let g : ℕ → EReal := fun t => if h : t < 256 then tileSum x sq lbl (tp ⟨t, h⟩) (tq ⟨t, h⟩) else 0
  -- after n steps the running sum is the sum of the first n tiles
  have key : ∀ n : ℕ, n ≤ 256 → f n = ∑ t ∈ Finset.range n, g t := by
    intro n
    induction n with
    | zero => intro _; rw [h0, zero_eq, Finset.range_zero, Finset.sum_empty]
    | succ n ih =>
      intro hn
      have hlt : n < 256 := by omega
      have hstep := hs ⟨n, hlt⟩
      have hg : g n = tileSum x sq lbl (tp ⟨n, hlt⟩) (tq ⟨n, hlt⟩) := dif_pos hlt
      rw [Finset.sum_range_succ, hg, ← ih (by omega)]
      rw [hstep, zero_eq, zero_add]
  rw [key 256 (le_refl _), zero_eq, zero_add, total_eq_tiles, ← Fin.sum_univ_eq_sum_range]
  refine Finset.sum_congr rfl fun t _ => ?_
  exact dif_pos t.isLt

end Cert.Spec

end
-- ==== Proof.KI.Blocks.lean ====
/-
  The input blocks at a grid point as rows of the arrays. Point t = 16 p + q reads, through the two windows on
  each array, the 512 rows of row block p and the 512 rows of row block q: of the embeddings (all 128
  coordinates), of the row norms and of the labels.
-/
import proofs.«103390_j9990093931268_1_alg».proof.Proof.KI.Data
import proofs.«103390_j9990093931268_1_alg».proof.Proof.SumBlocks
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Where each window's block starts, decided over the grid: the windows indexed by the first coordinate read row
    block t / 16, those indexed by the second read row block t mod 16. -/
theorem idx_facts : ∀ t : Fin cfg0.N,
    win0_0.index t 0 = t.val / 16 ∧ win0_0.index t 1 = 0 ∧ win0_1.index t 0 = t.val % 16 ∧ win0_1.index t 1 = 0
      ∧ win0_2.index t 0 = t.val / 16 ∧ win0_3.index t 0 = t.val % 16 ∧ win0_4.index t 0 = t.val / 16 ∧ win0_5.index t 0 = t.val % 16 :=
  (by decide +kernel : ∀ t : Fin grid0.N,
    win0_0.index t 0 = t.val / 16 ∧ win0_0.index t 1 = 0 ∧ win0_1.index t 0 = t.val % 16 ∧ win0_1.index t 1 = 0
      ∧ win0_2.index t 0 = t.val / 16 ∧ win0_3.index t 0 = t.val % 16 ∧ win0_4.index t 0 = t.val / 16 ∧ win0_5.index t 0 = t.val % 16)

/-- The grid coordinates of point t. -/
theorem coords_facts : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- Rows of block `tp t` of the embeddings. -/
theorem xI_apply (c : Dev nD) (t : Fin cfg0.N) (a : Fin 512) (k : Fin 128) :
    xI m c t (ix2 a k) = (V m c main_arg0 : S8192x128.Idx → Elt F .f32) (ix2 (Cert.Spec.row (Cert.Spec.tp t) a) k) := by
  obtain ⟨h0, h1, -⟩ := idx_facts t
  unfold xI iblk
  rw [View.read_apply]
  show V m c main_arg0 _ = V m c main_arg0 _
  congr 1
  funext d
  apply Fin.ext
  match d with
  | ⟨0, _⟩ => show win0_0.index t 0 * 512 + 1 * a.val = 512 * (t.val / 16) + a.val; rw [h0]; omega
  | ⟨1, _⟩ => show win0_0.index t 1 * 128 + 1 * k.val = k.val; rw [h1]; omega

/-- Rows of block `tq t` of the embeddings. -/
theorem xJ_apply (c : Dev nD) (t : Fin cfg0.N) (b : Fin 512) (k : Fin 128) :
    xJ m c t (ix2 b k) = (V m c main_arg0 : S8192x128.Idx → Elt F .f32) (ix2 (Cert.Spec.row (Cert.Spec.tq t) b) k) := by
  obtain ⟨-, -, h0, h1, -⟩ := idx_facts t
  unfold xJ iblk
  rw [View.read_apply]
  show V m c main_arg0 _ = V m c main_arg0 _
  congr 1
  funext d
  apply Fin.ext
  match d with
  | ⟨0, _⟩ => show win0_1.index t 0 * 512 + 1 * b.val = 512 * (t.val % 16) + b.val; rw [h0]; omega
  | ⟨1, _⟩ => show win0_1.index t 1 * 128 + 1 * k.val = k.val; rw [h1]; omega

/-- The row norms of block `tp t`. -/
theorem sI_apply (c : Dev nD) (t : Fin cfg0.N) (a : Fin 512) :
    sI m c t (ix1 a) = (V m c main_v1 : S8192.Idx → Elt F .f32) (ix1 (Cert.Spec.row (Cert.Spec.tp t) a)) := by
  obtain ⟨-, -, -, -, h0, -⟩ := idx_facts t
  unfold sI iblk
  rw [View.read_apply]
  show V m c main_v1 _ = V m c main_v1 _
  congr 1
  funext d
  apply Fin.ext
  match d with
  | ⟨0, _⟩ => show win0_2.index t 0 * 512 + 1 * a.val = 512 * (t.val / 16) + a.val; rw [h0]; omega

/-- The row norms of block `tq t`. -/
theorem sJ_apply (c : Dev nD) (t : Fin cfg0.N) (b : Fin 512) :
    sJ m c t (ix1 b) = (V m c main_v1 : S8192.Idx → Elt F .f32) (ix1 (Cert.Spec.row (Cert.Spec.tq t) b)) := by
  obtain ⟨-, -, -, -, -, h0, -⟩ := idx_facts t
  unfold sJ iblk
  rw [View.read_apply]
  show V m c main_v1 _ = V m c main_v1 _
  congr 1
  funext d
  apply Fin.ext
  match d with
  | ⟨0, _⟩ => show win0_3.index t 0 * 512 + 1 * b.val = 512 * (t.val % 16) + b.val; rw [h0]; omega

/-- The labels of block `tp t`. -/
theorem lI_apply (c : Dev nD) (t : Fin cfg0.N) (a : Fin 512) :
    lI m c t (ix1 a) = (V m c main_arg1 : S8192.Idx → Elt F .i32) (ix1 (Cert.Spec.row (Cert.Spec.tp t) a)) := by
  obtain ⟨-, -, -, -, -, -, h0, -⟩ := idx_facts t
  unfold lI iblk
  rw [View.read_apply]
  show V m c main_arg1 _ = V m c main_arg1 _
  congr 1
  funext d
  apply Fin.ext
  match d with
  | ⟨0, _⟩ => show win0_4.index t 0 * 512 + 1 * a.val = 512 * (t.val / 16) + a.val; rw [h0]; omega

/-- The labels of block `tq t`. -/
theorem lJ_apply (c : Dev nD) (t : Fin cfg0.N) (b : Fin 512) :
    lJ m c t (ix1 b) = (V m c main_arg1 : S8192.Idx → Elt F .i32) (ix1 (Cert.Spec.row (Cert.Spec.tq t) b)) := by
  obtain ⟨-, -, -, -, -, -, -, h0⟩ := idx_facts t
  unfold lJ iblk
  rw [View.read_apply]
  show V m c main_arg1 _ = V m c main_arg1 _
  congr 1
  funext d
  apply Fin.ext
  match d with
  | ⟨0, _⟩ => show win0_5.index t 0 * 512 + 1 * b.val = 512 * (t.val % 16) + b.val; rw [h0]; omega

end Cert.KernelIdeal.Hand

end
-- ==== Proof.KernelTerm.lean ====
/-
  The kernel's update of the scratch word at one grid point, read on the extended reals: the word it held plus
  the sum, over the 512 x 512 tile the point covers, of the specification's summand.
-/
import proofs.«103390_j9990093931268_1_alg».proof.Proof.KI.Data
import proofs.«103390_j9990093931268_1_alg».proof.Proof.Spec
import Idealize.ShloMosaic.PureOps.Ideal.Laws
import Idealize.ShloMosaic.Lib.Pipeline.Value
import Idealize.ShloMosaic.Lib.ValueLayout
import Idealize.ShloMosaic.Lib.StableHlo.Predicate

set_option maxRecDepth 16384

noncomputable section

namespace Cert.KernelSide

open Cert.KernelIdeal Cert.KernelIdeal.Gen
open Idealize.ShloMosaic Idealize.ShloMosaic.ValueIdx

/-! ## The column reshapes -/

/-- A vector cast to a one-column matrix reads, at row `i`, its `i`-th entry. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector spread down the columns of a square: at `(a, b)` its entry `a`. -/
theorem col_apply {α : Type} (x : S512.Idx → α) (h1 : S512.ShapeCasts S512x1) (h2 : S512x1.Broadcasts S512x512)
    (a b : Fin 512) : broadcastTo S512x512 (shapeCast S512x1 x h1) h2 (ix2 a b) = x (ix1 a) := by
  rw [broadcastTo_a1_ab_apply, shapeCast_a_a1_apply]

/-- A vector spread along the rows of a square: at `(a, b)` its entry `b`. -/
theorem row_apply {α : Type} (x : S512.Idx → α) (h1 : S512.ShapeCasts S1x512) (h2 : S1x512.Broadcasts S512x512)
    (a b : Fin 512) : broadcastTo S512x512 (shapeCast S1x512 x h1) h2 (ix2 a b) = x (ix1 b) := by
  rw [broadcastTo_1b_ab_apply, shapeCast_a_1a_apply]

/-! ## The product of the two row blocks -/

theorem lhs_mm_0 (i : S512x512.Idx) (q : dot_S512x128_S512x128_S512x512_1_1_0_0_n_n.contr.Idx) :
    (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
theorem lhs_mm_1 (i : S512x512.Idx) (q : dot_S512x128_S512x128_S512x512_1_1_0_0_n_n.contr.Idx) :
    (dot_S512x128_S512x128_S512x512_1_1_0_0_n_n.lhsIdx i q 1).val = (q ⟨0, by decide⟩).val :=
  dot_S512x128_S512x128_S512x512_1_1_0_0_n_n.lhsIdx_val_of_single rfl i q
theorem rhs_mm_0 (i : S512x512.Idx) (q : dot_S512x128_S512x128_S512x512_1_1_0_0_n_n.contr.Idx) :
    (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
theorem rhs_mm_1 (i : S512x512.Idx) (q : dot_S512x128_S512x128_S512x512_1_1_0_0_n_n.contr.Idx) :
    (dot_S512x128_S512x128_S512x512_1_1_0_0_n_n.rhsIdx i q 1).val = (q ⟨0, by decide⟩).val :=
  dot_S512x128_S512x128_S512x512_1_1_0_0_n_n.rhsIdx_val_of_single rfl i q

/-- The product into a zero accumulator, at `(a, b)`: the inner product of row `a` of the first block and row `b` of the second. -/
theorem mm_apply (x0 x1 : FVec Ideal S512x128 .f32) (a b : Fin 512) :
    matmul dot_S512x128_S512x128_S512x512_1_1_0_0_n_n none x0 x1 (constant (F := Ideal) S512x512 .f32 0x00000000#32) (ix2 a b)
      = ∑ k : Fin 128, x0 (ix2 a k) * x1 (ix2 b k) := by
  simp only [matmul]
  rw [Ideal.matmul_constant_zero_apply, ← Equiv.sum_comp (ValueIdx.contrEquiv1 dot_S512x128_S512x128_S512x512_1_1_0_0_n_n 128 rfl rfl).symm]
  refine Finset.sum_congr rfl fun k _ => ?_
  have hk := ValueIdx.contrEquiv1_symm_val dot_S512x128_S512x128_S512x512_1_1_0_0_n_n 128 rfl rfl k
  have el : dot_S512x128_S512x128_S512x512_1_1_0_0_n_n.lhsIdx (ix2 a b) ((ValueIdx.contrEquiv1 dot_S512x128_S512x128_S512x512_1_1_0_0_n_n 128 rfl rfl).symm k) = ix2 a k := funext fun c => Fin.ext (by
    match c with
    | ⟨0, _⟩ => exact lhs_mm_0 _ _
    | ⟨1, _⟩ => exact (lhs_mm_1 _ _).trans hk)
  have er : dot_S512x128_S512x128_S512x512_1_1_0_0_n_n.rhsIdx (ix2 a b) ((ValueIdx.contrEquiv1 dot_S512x128_S512x128_S512x512_1_1_0_0_n_n 128 rfl rfl).symm k) = ix2 b k := funext fun c => Fin.ext (by
    match c with
    | ⟨0, _⟩ => exact rhs_mm_0 _ _
    | ⟨1, _⟩ => exact (rhs_mm_1 _ _).trans hk)
  rw [el, er]

/-! ## The clamped squared distances of the tile -/

theorem pay3_apply (x0 x1 : Vec Ideal S512x128 .f32) (s0 s1 : Vec Ideal S512 .f32) (a b : Fin 512) :
    k0_pay3 x0 x1 s0 s1 (ix2 a b)
      = max (s0 (ix1 a) + s1 (ix1 b) - Cert.Spec.two * ∑ k : Fin 128, x0 (ix2 a k) * x1 (ix2 b k)) Cert.Spec.zero := by
  unfold k0_pay3
  rw [maximumf_apply, subf_apply, addf_apply, mulf_apply, mm_apply, col_apply, row_apply, shapeCast_self, shapeCast_self]
  rfl

/-! ## The two masks of the tile, as words -/

/-- The comparison of two words for equality, as a bit. -/
theorem eq_word (x y : BitVec 32) : IntOp.cmpi .eq x y = if x = y then 1#1 else 0#1 := by
  unfold IntOp.cmpi
  by_cases h : x = y
  · rw [if_pos h, h, beq_self_eq_true]; rfl
  · rw [if_neg h, show (x == y) = false from beq_eq_false_iff_ne.mpr h]; rfl

/-- Row `512 p + a` against row `512 q + b`, computed on 32-bit words and compared signed: the order of the numbers. -/
theorem lt_word (p q : Fin 16) (a b : Fin 512) :
    IntOp.cmpi .slt (IntOp.addi (Scalar.muli (BitVec.ofNat 32 p.val) 512#32) (BitVec.ofNat 32 a.val))
        (IntOp.addi (Scalar.muli (BitVec.ofNat 32 q.val) 512#32) (BitVec.ofNat 32 b.val))
      = if (Cert.Spec.row p a).val < (Cert.Spec.row q b).val then 1#1 else 0#1 := by
  have hp := p.isLt; have hq := q.isLt; have ha := a.isLt; have hb := b.isLt
  have h1 : (IntOp.addi (Scalar.muli (BitVec.ofNat 32 p.val) 512#32) (BitVec.ofNat 32 a.val)).toNat = 512 * p.val + a.val := by
    simp only [IntOp.addi, Scalar.muli, IntOp.muli, BitVec.toNat_add, BitVec.toNat_mul, BitVec.toNat_ofNat]
    omega
  have h2 : (IntOp.addi (Scalar.muli (BitVec.ofNat 32 q.val) 512#32) (BitVec.ofNat 32 b.val)).toNat = 512 * q.val + b.val := by
    simp only [IntOp.addi, Scalar.muli, IntOp.muli, BitVec.toNat_add, BitVec.toNat_mul, BitVec.toNat_ofNat]
    omega
  have key := StableHlo.Predicate.slt_iff_toNat (a := IntOp.addi (Scalar.muli (BitVec.ofNat 32 p.val) 512#32) (BitVec.ofNat 32 a.val))
    (b := IntOp.addi (Scalar.muli (BitVec.ofNat 32 q.val) 512#32) (BitVec.ofNat 32 b.val)) (by omega) (by omega)
  rw [h1, h2] at key
  show _ = if 512 * p.val + a.val < 512 * q.val + b.val then 1#1 else 0#1
  by_cases h : 512 * p.val + a.val < 512 * q.val + b.val
  · rw [if_pos h]; exact key.mpr h
  · rw [if_neg h]; exact eq_zero_of_ne_one (fun hh => h (key.mp hh))

theorem cmpi_apply {s : Shape} {w : Nat} (p : CmpIPredicate) (x y : IVec s w) (i : s.Idx) : cmpi p x y i = IntOp.cmpi p (x i) (y i) := rfl
theorem addi_apply {s : Shape} {w : Nat} (x y : IVec s w) (i : s.Idx) : addi x y i = IntOp.addi (x i) (y i) := rfl
theorem xori_apply {s : Shape} {w : Nat} (x y : IVec s w) (i : s.Idx) : xori x y i = IntOp.xori (x i) (y i) := rfl
theorem andi_apply {s : Shape} {w : Nat} (x y : IVec s w) (i : s.Idx) : andi x y i = IntOp.andi (x i) (y i) := rfl

/-- The equal-labels mask at `(a, b)`. -/
theorem pay4_apply (l0 l1 : Vec Ideal S512 .i32) (a b : Fin 512) :
    k0_pay4 (F := Ideal) l0 l1 (ix2 a b) = if l0 (ix1 a) = l1 (ix1 b) then 1#1 else 0#1 := by
  unfold k0_pay4
  rw [cmpi_apply, col_apply, row_apply]
  exact eq_word _ _

/-- The counted-pairs mask at `(a, b)`: row `512 p + a` is before row `512 q + b`. -/
theorem pay5_apply (i : grid0.Coords) (p q : Fin 16) (hp : (i 0).val = p.val) (hq : (i 1).val = q.val) (a b : Fin 512) :
    k0_pay5 i (ix2 a b) = if (Cert.Spec.row p a).val < (Cert.Spec.row q b).val then 1#1 else 0#1 := by
  unfold k0_pay5
  rw [cmpi_apply, addi_apply, addi_apply, broadcast_apply, broadcast_apply, iota_single_apply, iota_single_apply, hp, hq]
  exact lt_word p q a b

/-- The hinge mask at `(a, b)`: counted, and the labels differ. -/
theorem pay6_apply (i : grid0.Coords) (l0 l1 : Vec Ideal S512 .i32) (a b : Fin 512) :
    k0_pay6 (F := Ideal) i l0 l1 (ix2 a b)
      = IntOp.andi (k0_pay5 i (ix2 a b)) (IntOp.xori (k0_pay4 (F := Ideal) l0 l1 (ix2 a b)) 1#1) := by
  unfold k0_pay6
  rfl

/-! ## The tile's terms summed into the scratch word -/

/-- One pair's term as the payload computes it: from the clamped squared distance `d`, the equal-labels bit `e`, the
    counted bit `c` and the hinge bit `m`. -/
def pairTerm (d : EReal) (e c m : BitVec 1) : EReal :=
  Scalar.select e (Cert.Spec.one * d)
      (max (Cert.Spec.one - Ideal.sqrt (Scalar.select m d Cert.Spec.one)) Cert.Spec.zero
        * max (Cert.Spec.one - Ideal.sqrt (Scalar.select m d Cert.Spec.one)) Cert.Spec.zero)
    * (((c.setWidth 32).toInt : ℝ) : EReal)

/-- The sum over the two tile axes of a square viewed with a leading unit axis: the double sum of its entries. -/
theorem laneSum_apply (v : FVec Ideal S512x512 .f32) (h1 : S512x512.ShapeCasts S1x512x512)
    (h2 : S1x512x512.Reduces [1, 2] S1) (hφ : FKind.Formats .f32)
    (hacc : (0x00000000#32 : BitVec 32) = FKind.add.neutral .f32 hφ) (j : S1.Idx) :
    multiReduction (F := Ideal) .add [1, 2] S1 (shapeCast S1x512x512 v h1) 0x00000000#32 h2 hφ hacc j
      = ∑ a : Fin 512, ∑ b : Fin 512, v (ix2 a b) := by
  refine (Ideal.multiReduction_add_total _ _ h2 (fun b => by match b with | ⟨0, _⟩ => rfl) hφ hacc j).trans ?_
  exact (Equiv.sum_comp (Shape.reshapeEquiv h1) v).trans (sum_idx2 v)

/-- The stored word: the word the scratch held plus the sum over the tile of the pairs' terms. -/
theorem pay1_apply (v21 : FVec Ideal S512x512 .f32) (v28 v37 v39 : IVec S512x512 1) (acc : Vec Ideal S1x1 .f32) (y : S1x1.Idx) :
    k0_pay1 v21 v28 v37 v39 acc y
      = acc y + ∑ a : Fin 512, ∑ b : Fin 512, pairTerm (v21 (ix2 a b)) (v28 (ix2 a b)) (v37 (ix2 a b)) (v39 (ix2 a b)) := by
  unfold k0_pay1
  rw [shapeCast_self, addf_apply, broadcast_apply]
  refine congrArg (acc y + ·) ?_
  refine (laneSum_apply _ _ _ (.inl rfl) rfl _).trans ?_
  rfl

/-! ## One pair's term is the specification's summand -/

theorem bit_one_toReal : ((((1#1 : BitVec 1).setWidth 32).toInt : ℝ) : EReal) = 1 := by
  have h : ((1#1 : BitVec 1).setWidth 32).toInt = 1 := by decide
  rw [h]; simp
theorem bit_zero_toReal : ((((0#1 : BitVec 1).setWidth 32).toInt : ℝ) : EReal) = 0 := by
  have h : ((0#1 : BitVec 1).setWidth 32).toInt = 0 := by decide
  rw [h]; simp

/-- With the squared distance, the equal-labels bit, the counted bit and their hinge bit of the pair `(r, c)`, the payload's
    term is the summand: by the four cases of the two bits. -/
theorem pairTerm_eq (X : Fin 8192 → Fin 128 → EReal) (SQ : Fin 8192 → EReal) (LB : Fin 8192 → BitVec 32) (r c : Fin 8192) :
    pairTerm (Cert.Spec.d2 X SQ r c) (if LB r = LB c then 1#1 else 0#1) (if r.val < c.val then 1#1 else 0#1)
        (IntOp.andi (if r.val < c.val then 1#1 else 0#1) (IntOp.xori (if LB r = LB c then 1#1 else 0#1) 1#1))
      = Cert.Spec.term X SQ LB r c := by
  unfold pairTerm Cert.Spec.term Cert.Spec.hinge
  by_cases he : LB r = LB c
  · by_cases hl : r.val < c.val
    · simp only [if_pos he, if_pos hl]
      rw [select_one, bit_one_toReal]
    · simp only [if_pos he, if_neg hl]
      rw [select_one, bit_zero_toReal]
  · by_cases hl : r.val < c.val
    · simp only [if_neg he, if_pos hl, if_pos (⟨hl, he⟩ : r.val < c.val ∧ LB r ≠ LB c)]
      rw [show IntOp.andi 1#1 (IntOp.xori 0#1 1#1) = 1#1 from by decide, select_zero, select_one, bit_one_toReal]
    · simp only [if_neg he, if_neg hl, if_neg (fun h => hl h.1 : ¬(r.val < c.val ∧ LB r ≠ LB c))]
      rw [show IntOp.andi 0#1 (IntOp.xori 0#1 1#1) = 0#1 from by decide, select_zero, select_zero, bit_zero_toReal]

/-! ## The two statements -/

/-- The cleared scratch word is zero. -/
theorem pay2_apply (y : S1x1.Idx) : k0_pay2 (F := Ideal) y = Cert.Spec.zero := by
  unfold k0_pay2
  rw [shapeCast_self]
  rfl

/-- One point's update, at grid point (p, q), of blocks that are rows `512 p ..` and `512 q ..` of the arrays:
    the old word plus (zero plus) the tile's sum of the summand. -/
theorem upd_apply (i : grid0.Coords) (p q : Fin 16) (hp : (i 0).val = p.val) (hq : (i 1).val = q.val)
    (x0 x1 : Vec Ideal S512x128 .f32) (s0 s1 : Vec Ideal S512 .f32) (l0 l1 : Vec Ideal S512 .i32) (acc : Vec Ideal S1x1 .f32)
    (X : Fin 8192 → Fin 128 → EReal) (SQ : Fin 8192 → EReal) (LB : Fin 8192 → BitVec 32)
    (hx0 : ∀ (a : Fin 512) (k : Fin 128), x0 (ix2 a k) = X (Cert.Spec.row p a) k)
    (hx1 : ∀ (b : Fin 512) (k : Fin 128), x1 (ix2 b k) = X (Cert.Spec.row q b) k)
    (hs0 : ∀ a : Fin 512, s0 (ix1 a) = SQ (Cert.Spec.row p a)) (hs1 : ∀ b : Fin 512, s1 (ix1 b) = SQ (Cert.Spec.row q b))
    (hl0 : ∀ a : Fin 512, l0 (ix1 a) = LB (Cert.Spec.row p a)) (hl1 : ∀ b : Fin 512, l1 (ix1 b) = LB (Cert.Spec.row q b))
    (y : S1x1.Idx) :
    Cert.KernelIdeal.Hand.upd (F := Ideal) i x0 x1 s0 s1 l0 l1 acc y
      = acc y + (Cert.Spec.zero + Cert.Spec.tileSum X SQ LB p q) := by
  have hz : Cert.Spec.zero = 0 := Ideal.ofBits_zero_f32
  unfold Cert.KernelIdeal.Hand.upd
  rw [pay1_apply, hz, zero_add]
  refine congrArg (acc y + ·) ?_
  unfold Cert.Spec.tileSum
  refine Finset.sum_congr rfl fun a _ => Finset.sum_congr rfl fun b _ => ?_
  have hd : k0_pay3 x0 x1 s0 s1 (ix2 a b) = Cert.Spec.d2 X SQ (Cert.Spec.row p a) (Cert.Spec.row q b) := by
    rw [pay3_apply, hs0, hs1]
    unfold Cert.Spec.d2 Cert.Spec.dot
    simp only [hx0, hx1]
  rw [hd, pay6_apply, pay4_apply, pay5_apply i p q hp hq, hl0, hl1]
  exact pairTerm_eq X SQ LB _ _

end Cert.KernelSide

end
-- ==== Proof.RefTerm.lean ====
/-
  The reference, read at a pair of rows: its summand is the specification's, and its sum over the whole
  8192 x 8192 index set is the specification's total.
-/
import proofs.«103390_j9990093931268_1_alg».proof.Proof.Gen.ReferenceIdeal.Read
import proofs.«103390_j9990093931268_1_alg».proof.Proof.Spec
import Idealize.ShloMosaic.Lib.StableHlo.Predicate

noncomputable section

namespace Cert.RefSide

open Cert.ReferenceIdeal Cert.ReferenceIdeal.Gen Cert.ReferenceIdeal.Read
open Idealize.ShloMosaic Idealize.ShloMosaic.ValueIdx

/-- The embeddings by row and coordinate, the row norms the reference computes, the labels by row. -/
abbrev X (x0 : (⟨S8192x128, .f32⟩ : BufTy).Contents (Elt Ideal)) : Fin 8192 → Fin 128 → EReal := fun r k => x0 (ix2 r k)
abbrev SQ (x0 : (⟨S8192x128, .f32⟩ : BufTy).Contents (Elt Ideal)) : Fin 8192 → EReal := fun r => val_main_v1 (F := Ideal) x0 (ix1 r)
abbrev LB (x1 : (⟨S8192, .i32⟩ : BufTy).Contents (Elt Ideal)) : Fin 8192 → BitVec 32 := fun r => x1 (ix1 r)

/-! ### Words: the bits the masks are made of -/

/-- The word of a coordinate below 8192 has that coordinate as its value. -/
theorem toNat_coord (r : Fin 8192) : (BitVec.ofNat 32 r.val).toNat = r.val := by
  have := r.isLt
  rw [BitVec.toNat_ofNat]; exact Nat.mod_eq_of_lt (by omega)

/-- The strict-upper-triangle test on coordinates: "not (r + 0 ≥ c)" as a bit is 1 exactly when r < c. -/
theorem triu_bit (r c : Fin 8192) :
    Scalar.select (IntOp.cmpi .sge (IntOp.addi (BitVec.ofNat 32 r.val) 0#32) (BitVec.ofNat 32 c.val)) (0#1 : BitVec 1) 1#1
      = if r.val < c.val then 1#1 else 0#1 := by
  have hr := r.isLt
  have hc := c.isLt
  have ha : IntOp.addi (BitVec.ofNat 32 r.val) 0#32 = BitVec.ofNat 32 r.val := by
    show BitVec.ofNat 32 r.val + 0#32 = _
    exact BitVec.add_zero _
  rw [ha]
  have hiff := StableHlo.Predicate.sge_iff_toNat (a := BitVec.ofNat 32 r.val) (b := BitVec.ofNat 32 c.val)
    (by rw [toNat_coord]; omega) (by rw [toNat_coord]; omega)
  rw [toNat_coord, toNat_coord] at hiff
  by_cases h : r.val < c.val
  · rw [if_pos h, eq_zero_of_ne_one (fun h1 => absurd (hiff.mp h1) (by omega)), select_zero]
  · rw [if_neg h, hiff.mpr (by omega), select_one]

/-- Equality of two words as a bit. -/
theorem eq_bit (a b : BitVec 32) : IntOp.cmpi .eq a b = if a = b then 1#1 else 0#1 := by
  by_cases h : a = b
  · rw [if_pos h]; exact StableHlo.Predicate.cmpi_eq_iff.mpr h
  · rw [if_neg h]; exact eq_zero_of_ne_one (fun h1 => h (StableHlo.Predicate.cmpi_eq_iff.mp h1))

/-- "In the triangle and not equal" on decided bits. -/
theorem and_one_not_zero : IntOp.andi (1#1 : BitVec 1) (~~~(0#1 : BitVec 1)) = 1#1 := by decide
theorem and_zero_not_zero : IntOp.andi (0#1 : BitVec 1) (~~~(0#1 : BitVec 1)) = 0#1 := by decide

/-- The bit 1 converts to the number 1, the bit 0 to the number 0. -/
theorem uitofp_one : FloatOps.uitofp (F := Ideal) .f32 (1#1 : BitVec 1) = (1 : EReal) := by
  show (((1#1 : BitVec 1).toNat : ℝ) : EReal) = 1
  simp
theorem uitofp_zero : FloatOps.uitofp (F := Ideal) .f32 (0#1 : BitVec 1) = (0 : EReal) := by
  show (((0#1 : BitVec 1).toNat : ℝ) : EReal) = 0
  simp

/-! ### The reference's arrays at a pair of rows -/

/-- The inner product of rows r and c. -/
theorem dot_apply (x0 : (⟨S8192x128, .f32⟩ : BufTy).Contents (Elt Ideal)) (r c : Fin 8192) :
    val_main_v8 (F := Ideal) x0 (ix2 r c) = Cert.Spec.dot (X x0) r c := by
  rw [val_main_v8_apply]
  unfold Cert.Spec.dot
  refine Finset.sum_congr rfl fun k _ => ?_
  rw [val_main_v7_apply]
  have e1 : lidx_main_v8 (ix2 r c) k = ix2 r k :=
    funext fun a => Fin.ext (by match a with | ⟨0, _⟩ => rfl | ⟨1, _⟩ => rfl)
  have e2 : idx_main_v7 (ridx_main_v8 (ix2 r c) k) = ix2 c k :=
    funext fun a => Fin.ext (by match a with | ⟨0, _⟩ => rfl | ⟨1, _⟩ => rfl)
  rw [e1, e2]

/-- The clamped squared distance of rows r and c. -/
theorem d2_apply (x0 : (⟨S8192x128, .f32⟩ : BufTy).Contents (Elt Ideal)) (r c : Fin 8192) :
    val_main_v13 (F := Ideal) x0 (ix2 r c) = Cert.Spec.d2 (X x0) (SQ x0) r c := by
  rw [val_main_v13_apply, val_main_v12_apply, val_main_cst_1_apply, val_main_v11_apply, val_main_v6_apply,
    val_main_v10_apply, val_main_v9_apply, val_main_cst_0_apply, val_main_v4_apply, val_main_v2_apply,
    val_main_v5_apply, val_main_v3_apply, dot_apply]
  have e1 : idx_main_v2 (idx_main_v4 (ix2 r c)) = ix1 r :=
    funext fun a => Fin.ext (by match a with | ⟨0, _⟩ => rfl)
  have e2 : idx_main_v3 (idx_main_v5 (ix2 r c)) = ix1 c :=
    funext fun a => Fin.ext (by match a with | ⟨0, _⟩ => rfl)
  rw [e1, e2]
  rfl

/-- The strict-upper-triangle mask at (r, c): the bit of r < c. -/
theorem mask_apply (r c : Fin 8192) :
    val_main_v15 (F := Ideal) (ix2 r c) = if r.val < c.val then 1#1 else 0#1 := by
  rw [val_main_v15_apply, val_main_call0_v5_apply, val_main_call0_c_0_apply, val_main_v14_apply, val_main_c_apply,
    val_main_call0_v4_apply, val_main_call0_v2_apply, val_main_call0_v0_apply, val_main_call0_v1_apply,
    val_main_call0_c_apply, val_main_call0_v3_apply]
  exact triu_bit r c

/-- The equal-labels mask at (r, c): the bit of lbl r = lbl c. -/
theorem same_apply (x1 : (⟨S8192, .i32⟩ : BufTy).Contents (Elt Ideal)) (r c : Fin 8192) :
    val_main_v20 (F := Ideal) x1 (ix2 r c) = if LB x1 r = LB x1 c then 1#1 else 0#1 := by
  rw [val_main_v20_apply, val_main_v18_apply, val_main_v16_apply, val_main_v19_apply, val_main_v17_apply]
  have e1 : idx_main_v16 (idx_main_v18 (ix2 r c)) = ix1 r :=
    funext fun a => Fin.ext (by match a with | ⟨0, _⟩ => rfl)
  have e2 : idx_main_v17 (idx_main_v19 (ix2 r c)) = ix1 c :=
    funext fun a => Fin.ext (by match a with | ⟨0, _⟩ => rfl)
  rw [e1, e2]
  exact eq_bit _ _

/-- The reference's masked term at the pair (r, c) is the specification's summand. -/
theorem ref_term (x0 : (⟨S8192x128, .f32⟩ : BufTy).Contents (Elt Ideal)) (x1 : (⟨S8192, .i32⟩ : BufTy).Contents (Elt Ideal)) (r c : Fin 8192) :
    val_main_v33 (F := Ideal) x0 x1 (ix2 r c) = Cert.Spec.term (X x0) (SQ x0) (LB x1) r c := by
  simp only [val_main_v33_apply, val_main_v32_apply, val_main_v31_apply, val_main_v30_apply, val_main_v29_apply,
    val_main_v28_apply, val_main_v27_apply, val_main_cst_4_apply, val_main_v26_apply, val_main_v25_apply,
    val_main_v24_apply, val_main_v23_apply, val_main_v22_apply, val_main_v21_apply, val_main_cst_2_apply,
    val_main_call2_v1_apply, val_main_call2_v0_apply, val_main_cst_5_apply, val_main_call1_v1_apply,
    val_main_call1_v0_apply, val_main_cst_3_apply, d2_apply, mask_apply, same_apply,
    Ideal.mulf_def, Ideal.subf_def, Ideal.maximumf_def, Ideal.hostUnary_sqrt_def, Ideal.ofBits_def]
  unfold Cert.Spec.term Cert.Spec.hinge
  by_cases hl : LB x1 r = LB x1 c <;> by_cases hlt : r.val < c.val
  · simp only [if_pos hl, if_pos hlt, select_one, uitofp_one]
  · simp only [if_pos hl, if_neg hlt, select_one, uitofp_zero]
  · have hand : r.val < c.val ∧ LB x1 r ≠ LB x1 c := ⟨hlt, hl⟩
    simp only [if_neg hl, if_pos hlt, if_pos hand, select_zero, and_one_not_zero, select_one, uitofp_one]
    rw [max_comm]
  · have hand : ¬(r.val < c.val ∧ LB x1 r ≠ LB x1 c) := fun h => hlt h.1
    simp only [if_neg hl, if_neg hlt, if_neg hand, select_zero, and_zero_not_zero, uitofp_zero]
    rw [max_comm]

/-- The reference's sum over all pairs. -/
theorem ref_sum (x0 : (⟨S8192x128, .f32⟩ : BufTy).Contents (Elt Ideal)) (x1 : (⟨S8192, .i32⟩ : BufTy).Contents (Elt Ideal)) (i : S_.Idx) :
    val_main_v34 (F := Ideal) x0 x1 i = Cert.Spec.zero + Cert.Spec.total (X x0) (SQ x0) (LB x1) := by
  rw [val_main_v34_apply, val_main_cst_6_apply, ValueIdx.sum_idx2]
  unfold Cert.Spec.total
  exact congrArg (_ + ·) (Finset.sum_congr rfl fun r _ => Finset.sum_congr rfl fun c _ => ref_term x0 x1 r c)

end Cert.RefSide

end
-- ==== Proof.Value.lean ====
/-
  The idealized kernel's result is the reference's, on the extended reals.

  The scratch word starts at zero and each grid point adds its tile's sum of the summand, so after the 256 points
  it holds the sum over all pairs; the reference's sum over the whole 8192 x 8192 index set is the same sum, tile by
  tile; both programs then divide that scalar by the number of pairs and reshape it to one element. The
  arrays the two sums are taken over are the same: the embeddings and the labels as launched, and the row
  norms both programs compute by the same row sums of squares.
-/
import proofs.«103390_j9990093931268_1_alg».proof.Proof.KI.Final
import proofs.«103390_j9990093931268_1_alg».proof.Proof.KI.Blocks
import proofs.«103390_j9990093931268_1_alg».proof.Proof.KernelTerm
import proofs.«103390_j9990093931268_1_alg».proof.Proof.RefTerm
import proofs.«103390_j9990093931268_1_alg».proof.Proof.SumBlocks

set_option maxRecDepth 16384

noncomputable section

namespace Cert.Value

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The arrays the region reads, by row (and coordinate), as the summand takes them. -/
abbrev KX (c : Dev nD) : Fin 8192 → Fin 128 → EReal := fun r k => (V m c main_arg0 : S8192x128.Idx → EReal) (ix2 r k)
abbrev KSQ (c : Dev nD) : Fin 8192 → EReal := fun r => (V m c main_v1 : S8192.Idx → EReal) (ix1 r)
abbrev KLB (c : Dev nD) : Fin 8192 → BitVec 32 := fun r => (V m c main_arg1 : S8192.Idx → BitVec 32) (ix1 r)

/-- After the last point the scratch word is (zero plus) the sum of the summand over all pairs. -/
theorem acc_final (c : Dev nD) (y : S1x1.Idx) :
    accAt (F := Ideal) m c 256 y = Cert.Spec.zero + Cert.Spec.total (KX m c) (KSQ m c) (KLB m c) := by
  refine Cert.Spec.fold_eq (KX m c) (KSQ m c) (KLB m c) (fun n => accAt (F := Ideal) m c n y) ?_ ?_
  · exact Cert.KernelSide.pay2_apply y
  · intro t
    show accAt (F := Ideal) m c ((t : Fin cfg0.N).val + 1) y = accAt (F := Ideal) m c (t : Fin cfg0.N).val y + _
    rw [accAt_succ m c t]
    exact Cert.KernelSide.upd_apply (grid0.coords (t : Fin cfg0.N)) (Cert.Spec.tp t) (Cert.Spec.tq t)
      (coords_facts t).1 (coords_facts t).2
      (xI m c t) (xJ m c t) (sI m c t) (sJ m c t) (lI m c t) (lJ m c t) (accAt (F := Ideal) m c t.val)
      (KX m c) (KSQ m c) (KLB m c)
      (fun a k => xI_apply m c t a k) (fun b k => xJ_apply m c t b k)
      (fun a => sI_apply m c t a) (fun b => sJ_apply m c t b)
      (fun a => lI_apply m c t a) (fun b => lJ_apply m c t b) y

/-- The kernel's result: the final word, reshaped to a scalar, over the number of pairs, reshaped to one element. -/
abbrev kernelResult (c : Dev nD) : FVec Ideal S1 .f32 :=
  shapeCast S1 (Host.divf (F := Ideal) (shapeCast S_ (accAt (F := Ideal) m c 256 : FVec Ideal S1x1 .f32) shapeCasts_S1x1_S_)
    (constant (F := Ideal) S_ .f32 0x4BFFF800#32)) shapeCasts_S_S1

/-- The row norms the kernel's program computes before the region are those the reference computes. -/
theorem KSQ_eq (c : Dev nD) :
    KSQ m c = Cert.RefSide.SQ (m ((c : Thread nD τ).loc main_arg0)) := by
  funext r
  show (V m c main_v1 : S8192.Idx → EReal) (ix1 r) = _
  rw [V_sq m c]
  rfl

/-- The reference's result, from the same arguments, is the kernel's. -/
theorem result_eq (c : Dev nD) :
    Cert.ReferenceIdeal.Read.val_main_v36 (F := Ideal) (m ((c : Thread nD τ).loc main_arg0)) (m ((c : Thread nD τ).loc main_arg1))
      = kernelResult m c := by
  have hs : Cert.ReferenceIdeal.Read.val_main_v34 (F := Ideal) (m ((c : Thread nD τ).loc main_arg0)) (m ((c : Thread nD τ).loc main_arg1))
      = (shapeCast S_ (accAt (F := Ideal) m c 256 : FVec Ideal S1x1 .f32) shapeCasts_S1x1_S_ : FVec Ideal S_ .f32) := by
    funext i
    rw [Cert.RefSide.ref_sum]
    unfold shapeCast
    rw [acc_final m c]
    have hx : KX m c = Cert.RefSide.X (m ((c : Thread nD τ).loc main_arg0)) := by
      funext r k
      show (V m c main_arg0 : S8192x128.Idx → EReal) (ix2 r k) = _
      rw [V_arg0 m c]
    have hl : KLB m c = Cert.RefSide.LB (m ((c : Thread nD τ).loc main_arg1)) := by
      funext r
      show (V m c main_arg1 : S8192.Idx → BitVec 32) (ix1 r) = _
      rw [V_arg1 m c]
    rw [hx, hl, KSQ_eq m c]
  unfold Cert.ReferenceIdeal.Read.val_main_v36 Cert.ReferenceIdeal.Read.val_main_v35 kernelResult
  rw [hs]
  rfl

end Cert.Value

end
-- ==== Proof.lean ====
/-
  The certificate's claims.

  The kernel sums, over a 16 x 16 grid of 512 x 512 tiles, the contrastive-loss summand of every pair of rows,
  carrying the running sum in a one-word scratch, and the program around it divides by the number of pairs; the
  reference forms the whole 8192 x 8192 matrix of summands, sums it, and divides by the same number. On the
  extended reals addition is associative and commutative, so the tiled sum is the whole sum: the two results
  are equal. The word-level and the idealized kernel programs both run to the end without fault and leave
  their arguments unchanged (their frames, proved once for any float instance); the reference's frame is its
  run; and the idealization rewrote nothing, so there is nothing to preserve.
-/
import proofs.«103390_j9990093931268_1_alg».proof.Defs
import proofs.«103390_j9990093931268_1_alg».proof.Proof.Gen.Kernel
import proofs.«103390_j9990093931268_1_alg».proof.Proof.Gen.KernelIdeal
import proofs.«103390_j9990093931268_1_alg».proof.Proof.Gen.ReferenceIdeal
import proofs.«103390_j9990093931268_1_alg».proof.Proof.Gen.ReferenceIdeal.Run
import proofs.«103390_j9990093931268_1_alg».proof.Proof.Gen.ReferenceIdeal.Read
import proofs.«103390_j9990093931268_1_alg».proof.Proof.Gen.Pre_finite_inputs
import proofs.«103390_j9990093931268_1_alg».proof.Proof.K.Final
import proofs.«103390_j9990093931268_1_alg».proof.Proof.KI.Final
import proofs.«103390_j9990093931268_1_alg».proof.Proof.Value

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same one-element result: the sum of
    the summand over all pairs, over the number of pairs. -/
theorem algebraic : Cert.algebraic_KernelIdeal_ReferenceIdeal := by
  intro m ρ m' ρ' _ hagree
  refine ⟨fun c => Cert.Value.kernelResult m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2]
  exact Cert.Value.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
